-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S4x32768x512 : Shape := ⟨3, ![4, 32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4x32768x512 : S_.BroadcastsInDim S4x32768x512 (![] : Fin 0 → Fin S4x32768x512.rank)
  reducesTo_S4x32768x512_S_d0_1_2 : S4x32768x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512x512 .f32) (main_arg19 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512x512 .f32 := Host.absf main_arg18
  let main_cst_34 : FVec F S_ .f32 := constant S_ .f32 0x7F800000#32
  let main_v90 : FVec F S512x512 .f32 := broadcastInDim S512x512 ![] bcast_S_S512x512 main_cst_34
  let main_v91 : IVec S512x512 1 := cmpf .olt main_v89 main_v90
  let main_c_35 : IVec S_ 1 := constantI S_ 1 1#1
  let main_v92 : IVec S_ 1 := (fun x v => Host.reduce IntOp.andi x v reducesTo_S512x512_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  main_v98

def fn_part4 {F : FTy → Type} [FloatOps F] (main_arg14 : FVec F S512x512 .f32) (main_arg15 : FVec F S512 .f32) (main_arg16 : FVec F S512x512 .f32) (main_arg17 : FVec F S512 .f32) (main_arg18 : FVec F S512x512 .f32) (main_arg19 : FVec F S512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x512 .f32 := Host.absf main_arg16
  let main_cst_30 : FVec F S_ .f32 := constant S_ .f32 0x7F800000#32
  let main_v80 : FVec F S512x512 .f32 := broadcastInDim S512x512 ![] bcast_S_S512x512 main_cst_30
  let main_v81 : IVec S512x512 1 := cmpf .olt main_v79 main_v80
  let main_c_31 : IVec S_ 1 := constantI S_ 1 1#1
  let main_v82 : IVec S_ 1 := (fun x v => Host.reduce IntOp.andi x v reducesTo_S512x512_S_d0_1 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S512 .f32) (main_arg12 : FVec F S512x512 .f32) (main_arg13 : FVec F S512 .f32) (main_arg14 : FVec F S512x512 .f32) (main_arg15 : FVec F S512 .f32) (main_arg16 : FVec F S512x512 .f32) (main_arg17 : FVec F S512 .f32) (main_arg18 : FVec F S512x512 .f32) (main_arg19 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_arg16 : FVec F S512x512 .f32) (main_arg17 : FVec F S512 .f32) (main_arg18 : FVec F S512x512 .f32) (main_arg19 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_arg16 : FVec F S512x512 .f32) (main_arg17 : FVec F S512 .f32) (main_arg18 : FVec F S512x512 .f32) (main_arg19 : FVec F S512 .f32) (main_v13 : IVec S_ 1) (main_v16 : IVec S32768x512 1) : IVec S_ 1 :=
  let main_c_5 : IVec S_ 1 := constantI S_ 1 1#1
  let main_v17 : IVec S_ 1 := (fun x v => Host.reduce IntOp.andi x v reducesTo_S32768x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S32768x512 .f32) (main_arg1 : FVec F S4x32768x512 .f32) (main_arg2 : FVec F S4x32768x512 .f32) (main_arg3 : FVec F S32768x512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_arg14 : FVec F S512x512 .f32) (main_arg15 : FVec F S512 .f32) (main_arg16 : FVec F S512x512 .f32) (main_arg17 : FVec F S512 .f32) (main_arg18 : FVec F S512x512 .f32) (main_arg19 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S4x32768x512 .f32 := Host.absf main_arg1
  let main_cst_0 : FVec F S_ .f32 := constant S_ .f32 0x7F800000#32
  let main_v5 : FVec F S4x32768x512 .f32 := broadcastInDim S4x32768x512 ![] bcast_S_S4x32768x512 main_cst_0
  let main_v6 : IVec S4x32768x512 1 := cmpf .olt main_v4 main_v5
  let main_c_1 : IVec S_ 1 := constantI S_ 1 1#1
  let main_v7 : IVec S_ 1 := (fun x v => Host.reduce IntOp.andi x v reducesTo_S4x32768x512_S_d0_1_2 h_S_) main_v6 main_c_1
  let main_v8 : IVec S_ 1 := andi main_v3 main_v7
  let main_v9 : FVec F S4x32768x512 .f32 := Host.absf main_arg2
  let main_cst_2 : FVec F S_ .f32 := constant S_ .f32 0x7F800000#32
  let main_v10 : FVec F S4x32768x512 .f32 := broadcastInDim S4x32768x512 ![] bcast_S_S4x32768x512 main_cst_2
  let main_v11 : IVec S4x32768x512 1 := cmpf .olt main_v9 main_v10
  let main_c_3 : IVec S_ 1 := constantI S_ 1 1#1
  let main_v12 : IVec S_ 1 := (fun x v => Host.reduce IntOp.andi x v reducesTo_S4x32768x512_S_d0_1_2 h_S_) main_v11 main_c_3
  let main_v13 : IVec S_ 1 := andi main_v8 main_v12
  let main_v14 : FVec F S32768x512 .f32 := Host.absf main_arg3
  let main_cst_4 : FVec F S_ .f32 := constant S_ .f32 0x7F800000#32
  let main_v15 : FVec F S32768x512 .f32 := broadcastInDim S32768x512 ![] bcast_S_S32768x512 main_cst_4
  let main_v16 : IVec S32768x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S32768x512 : Shape := ⟨2, ![32768, 512]⟩
abbrev S4x32768x512 : Shape := ⟨3, ![4, 32768, 512]⟩
abbrev S512x512 : Shape := ⟨2, ![512, 512]⟩
abbrev S512 : Shape := ⟨1, ![512]⟩
abbrev S1x512x512 : Shape := ⟨3, ![1, 512, 512]⟩
abbrev S4x512x512 : Shape := ⟨3, ![4, 512, 512]⟩
abbrev S1x512 : Shape := ⟨2, ![1, 512]⟩
abbrev S4x512 : Shape := ⟨2, ![4, 512]⟩

abbrev nBuf : Space → Nat
  | .hbm => 52
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S4x32768x512, .f32⟩
  | .hbm, ⟨2, _⟩ => ⟨S4x32768x512, .f32⟩
  | .hbm, ⟨3, _⟩ => ⟨S32768x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S1x512x512, .f32⟩
  | .hbm, ⟨25, _⟩ => ⟨S1x512x512, .f32⟩
  | .hbm, ⟨26, _⟩ => ⟨S1x512x512, .f32⟩
  | .hbm, ⟨27, _⟩ => ⟨S1x512x512, .f32⟩
  | .hbm, ⟨28, _⟩ => ⟨S4x512x512, .f32⟩
  | .hbm, ⟨29, _⟩ => ⟨S4x512x512, .bf16⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S1x512x512, .f32⟩
  | .hbm, ⟨35, _⟩ => ⟨S1x512x512, .f32⟩
  | .hbm, ⟨36, _⟩ => ⟨S1x512x512, .f32⟩
  | .hbm, ⟨37, _⟩ => ⟨S1x512x512, .f32⟩
  | .hbm, ⟨38, _⟩ => ⟨S4x512x512, .f32⟩
  | .hbm, ⟨39, _⟩ => ⟨S4x512x512, .bf16⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S1x512, .f32⟩
  | .hbm, ⟨44, _⟩ => ⟨S4x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S1x512, .f32⟩
  | .hbm, ⟨49, _⟩ => ⟨S4x512, .f32⟩
  | .hbm, ⟨50, _⟩ => ⟨S32768x512, .f32⟩
  | .hbm, ⟨51, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x512x512, .f32⟩
  | .local _ .vmem, ⟨5, _⟩ => ⟨S4x512x512, .f32⟩
  | .local _ .vmem, ⟨6, _⟩ => ⟨S4x512x512, .f32⟩
  | .local _ .vmem, ⟨7, _⟩ => ⟨S4x512x512, .f32⟩
  | .local _ .vmem, ⟨8, _⟩ => ⟨S4x512x512, .bf16⟩
  | .local _ .vmem, ⟨9, _⟩ => ⟨S4x512, .f32⟩
  | .local _ .vmem, ⟨10, _⟩ => ⟨S4x512x512, .bf16⟩
  | .local _ .vmem, ⟨11, _⟩ => ⟨S4x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S512x512_S512x512_1_0 : S512x512.Transposes [1, 0] S512x512
  bcast_S512x512_S1x512x512_1_2 : S512x512.BroadcastsInDim S1x512x512 (![1, 2] : Fin 2 → Fin S1x512x512.rank)
  concatenates_S1x512x512_S1x512x512_S1x512x512_S1x512x512_S4x512x512_d0 : Shape.Concatenates [S1x512x512, S1x512x512, S1x512x512, S1x512x512] S4x512x512 0
  bitsLt_bf16_f32 : FTy.bits .bf16 < FTy.bits .f32
  bcast_S512_S1x512_1 : S512.BroadcastsInDim S1x512 (![1] : Fin 1 → Fin S1x512.rank)
  concatenates_S1x512_S1x512_S1x512_S1x512_S4x512_d0 : Shape.Concatenates [S1x512, S1x512, S1x512, S1x512] S4x512 0
  inb_S512x512_S512x512_0_0 : ∀ a, (![0, 0] : Fin 2 → Nat) a + S512x512.size a ≤ S512x512.size a
  h_S512x512 : 0 < S512x512.numel
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  inb_S4x512_S1x512_0_0 : ∀ a, (![0, 0] : Fin 2 → Nat) a + S1x512.size a ≤ S4x512.size a
  h_S1x512 : 0 < S1x512.numel
  shapeCasts_S1x512_S512 : S1x512.ShapeCasts S512
  shapeCasts_S512_S1x512 : S512.ShapeCasts S1x512
  broadcasts_S1x512_S512x512 : S1x512.Broadcasts S512x512
  inb_S4x512x512_S1x512x512_2_0_0 : ∀ a, (![2, 0, 0] : Fin 3 → Nat) a + S1x512x512.size a ≤ S4x512x512.size a
  inb_S4x512_S1x512_2_0 : ∀ a, (![2, 0] : Fin 2 → Nat) a + S1x512.size a ≤ S4x512.size a
  inb_S4x512x512_S1x512x512_3_0_0 : ∀ a, (![3, 0, 0] : Fin 3 → Nat) a + S1x512x512.size a ≤ S4x512x512.size a
  inb_S4x512_S1x512_3_0 : ∀ a, (![3, 0] : Fin 2 → Nat) a + S1x512.size a ≤ S4x512.size a
  inb_S4x512x512_S1x512x512_1_0_0 : ∀ a, (![1, 0, 0] : Fin 3 → Nat) a + S1x512x512.size a ≤ S4x512x512.size a
  inb_S4x512_S1x512_1_0 : ∀ a, (![1, 0] : Fin 2 → Nat) a + S1x512.size a ≤ S4x512.size a
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x512.size a ≤ S4x32768x512.size a
  hwx0_2 : ∀ i : grid0.Coords, EltTy.bits .f32 = 32 ∨ (Rect.block (s := S4x32768x512) S4x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x512.size a ≤ S4x32768x512.size a
  hwx0_3 : ∀ i : grid0.Coords, EltTy.bits .f32 = 32 ∨ (Rect.block (s := S4x32768x512) S4x512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x512x512.size a ≤ S4x512x512.size a
  hwx0_4 : ∀ i : grid0.Coords, EltTy.bits .bf16 = 32 ∨ (Rect.block (s := S4x512x512) S4x512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x512.size a ≤ S4x512.size a
  hwx0_5 : ∀ i : grid0.Coords, EltTy.bits .f32 = 32 ∨ (Rect.block (s := S4x512) S4x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x512x512.size a ≤ S4x512x512.size a
  hwx0_6 : ∀ i : grid0.Coords, EltTy.bits .bf16 = 32 ∨ (Rect.block (s := S4x512x512) S4x512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x512.size a ≤ S4x512.size a
  hwx0_7 : ∀ i : grid0.Coords, EltTy.bits .f32 = 32 ∨ (Rect.block (s := S4x512) S4x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S32768x512.size a
  hwx0_8 : ∀ i : grid0.Coords, EltTy.bits .f32 = 32 ∨ (Rect.block (s := S32768x512) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S32768x512.size a
  hwx0_9 : ∀ i : grid0.Coords, EltTy.bits .f32 = 32 ∨ (Rect.block (s := S32768x512) S512x512.size (cc0_transform_9 i) (hinb0_9 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4x512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4x512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S4x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S4x512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S4x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30_0) S512x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v30_1) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x512 : Shape := ⟨2, ![32768, 512]⟩
abbrev S4x32768x512 : Shape := ⟨3, ![4, 32768, 512]⟩
abbrev S512x512 : Shape := ⟨2, ![512, 512]⟩
abbrev S512 : Shape := ⟨1, ![512]⟩
abbrev S1x512 : Shape := ⟨2, ![1, 512]⟩
abbrev S_ : Shape := ⟨0, ![]⟩
abbrev S1x1x512 : Shape := ⟨3, ![1, 1, 512]⟩
abbrev S1x32768x512 : Shape := ⟨3, ![1, 32768, 512]⟩

abbrev nBuf : Space → Nat
  | .hbm => 90
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S4x32768x512, .f32⟩
  | .hbm, ⟨2, _⟩ => ⟨S4x32768x512, .f32⟩
  | .hbm, ⟨3, _⟩ => ⟨S32768x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512, .f32⟩
  | .hbm, ⟨16, _⟩ => ⟨S512x512, .f32⟩
  | .hbm, ⟨17, _⟩ => ⟨S512, .f32⟩
  | .hbm, ⟨18, _⟩ => ⟨S512x512, .f32⟩
  | .hbm, ⟨19, _⟩ => ⟨S512, .f32⟩
  | .hbm, ⟨20, _⟩ => ⟨S32768x512, .f32⟩
  | .hbm, ⟨21, _⟩ => ⟨S1x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S1x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S_, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S1x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S1x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S_, .f32⟩
  | .hbm, ⟨49, _⟩ => ⟨S32768x512, .f32⟩
  | .hbm, ⟨50, _⟩ => ⟨S32768x512, .f32⟩
  | .hbm, ⟨51, _⟩ => ⟨S_, .f32⟩
  | .hbm, ⟨52, _⟩ => ⟨S32768x512, .f32⟩
  | .hbm, ⟨53, _⟩ => ⟨S32768x512, .f32⟩
  | .hbm, ⟨54, _⟩ => ⟨S32768x512, .f32⟩
  | .hbm, ⟨55, _⟩ => ⟨S1x512, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S1x512, .f32⟩
  | .hbm, ⟨60, _⟩ => ⟨S32768x512, .f32⟩
  | .hbm, ⟨61, _⟩ => ⟨S32768x512, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S1x512, .f32⟩
  | .hbm, ⟨66, _⟩ => ⟨S32768x512, .f32⟩
  | .hbm, ⟨67, _⟩ => ⟨S32768x512, .f32⟩
  | .hbm, ⟨68, _⟩ => ⟨S4x32768x512, .f32⟩
  | .hbm, ⟨69, _⟩ => ⟨S1x1x512, .f32⟩
  | .hbm, ⟨70, _⟩ => ⟨S4x32768x512, .f32⟩
  | .hbm, ⟨71, _⟩ => ⟨S4x32768x512, .f32⟩
  | .hbm, ⟨72, _⟩ => ⟨S1x32768x512, .f32⟩
  | .hbm, ⟨73, _⟩ => ⟨S4x32768x512, .f32⟩
  | .hbm, ⟨74, _⟩ => ⟨S4x32768x512, .f32⟩
  | .hbm, ⟨75, _⟩ => ⟨S4x32768x512, .f32⟩
  | .hbm, ⟨76, _⟩ => ⟨S4x32768x512, .f32⟩
  | .hbm, ⟨77, _⟩ => ⟨S_, .f32⟩
  | .hbm, ⟨78, _⟩ => ⟨S4x32768x512, .f32⟩
  | .hbm, ⟨79, _⟩ => ⟨S4x32768x512, .f32⟩
  | .hbm, ⟨80, _⟩ => ⟨S_, .f32⟩
  | .hbm, ⟨81, _⟩ => ⟨S4x32768x512, .f32⟩
  | .hbm, ⟨82, _⟩ => ⟨S4x32768x512, .f32⟩
  | .hbm, ⟨83, _⟩ => ⟨S4x32768x512, .f32⟩
  | .hbm, ⟨84, _⟩ => ⟨S32768x512, .f32⟩
  | .hbm, ⟨85, _⟩ => ⟨S_, .f32⟩
  | .hbm, ⟨86, _⟩ => ⟨S32768x512, .f32⟩
  | .hbm, ⟨87, _⟩ => ⟨S32768x512, .f32⟩
  | .hbm, ⟨88, _⟩ => ⟨S32768x512, .f32⟩
  | .hbm, ⟨89, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_cst_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_1 : Ref sig .tc := ⟨.hbm, 48, rfl⟩
abbrev main_v26 : Ref sig .tc := ⟨.hbm, 49, rfl⟩
abbrev main_v27 : Ref sig .tc := ⟨.hbm, 50, rfl⟩
abbrev main_cst_2 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_cst_4 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_5 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  bcast_S512_S1x1x512_2 : S512.BroadcastsInDim S1x1x512 (![2] : Fin 1 → Fin S1x1x512.rank)
  bcast_S1x1x512_S4x32768x512_0_1_2 : S1x1x512.BroadcastsInDim S4x32768x512 (![0, 1, 2] : Fin 3 → Fin S4x32768x512.rank)
  bcast_S32768x512_S1x32768x512_1_2 : S32768x512.BroadcastsInDim S1x32768x512 (![1, 2] : Fin 2 → Fin S1x32768x512.rank)
  bcast_S1x32768x512_S4x32768x512_0_1_2 : S1x32768x512.BroadcastsInDim S4x32768x512 (![0, 1, 2] : Fin 3 → Fin S4x32768x512.rank)
  bcast_S_S4x32768x512 : S_.BroadcastsInDim S4x32768x512 (![] : Fin 0 → Fin S4x32768x512.rank)
  reducesTo_S4x32768x512_S32768x512_d0 : S4x32768x512.ReducesTo [0] S32768x512
  h_S_ : 0 < S_.numel
  dot_S32768x512_S512x512_S32768x512_1_1_0_0_n_n_wf : DotDims.WF S32768x512 S512x512 S32768x512 [1] [1] [0] [0] [] []
  dot_S4x32768x512_S512x512_S4x32768x512_2_1_01_0_n_n_wf : DotDims.WF S4x32768x512 S512x512 S4x32768x512 [2] [1] [0, 1] [0] [] []

variable [Facts₀]

def dot_S32768x512_S512x512_S32768x512_1_1_0_0_n_n : DotDims S32768x512 S512x512 S32768x512 where
  lhsContracting := [1]
  rhsContracting := [1]
  lhsNonContracting := [0]
  rhsNonContracting := [0]
  lhsBatch := []
  rhsBatch := []
  wf := dot_S32768x512_S512x512_S32768x512_1_1_0_0_n_n_wf
def dot_S4x32768x512_S512x512_S4x32768x512_2_1_01_0_n_n : DotDims S4x32768x512 S512x512 S4x32768x512 where
  lhsContracting := [2]
  rhsContracting := [1]
  lhsNonContracting := [0, 1]
  rhsNonContracting := [0]
  lhsBatch := []
  rhsBatch := []
  wf := dot_S4x32768x512_S512x512_S4x32768x512_2_1_01_0_n_n_wf

class Facts : Prop extends Facts₀ where

variable [Facts]
-- ==== Proof.LaunchBits.lean ====
/-
  @main up to its one region, and what a run of the region gives back.

  @main is thirty host operations (four transposed weight matrices stacked and narrowed, twice; four bias rows stacked,
  twice) followed by the region. None of them writes an argument array, so the region finds every argument as launched
  (`V_main_argK`); an input window's staging buffer holds its block at every grid point, fetched there or not
  (`beforeW_of`); and a run that ends with every array of the pipeline at what the proof data say and every other
  unscoped buffer as the region found it leaves the twenty arguments unchanged (`frame_of`) with the two results at the
  proof data's final arrays (`value_of`). Stated for any float family.
-/
import proofs.«170643_j27986006900855_1_alg».proof.Proof.Gen.Kernel.Launch
import proofs.«170643_j27986006900855_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## @main up to the region -/

/-- Core `c`'s TensorCore buffers when the region is entered: after the thirty host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point: where it is not fetched the block index
    has not moved since the point that fetched it, and the body leaves input buffers as it found them. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What a run of the region gives back -/

/-- The twenty arguments end as launched: a staged one is its pipeline array, which the transfers only read; the
    others are buffers the region does not touch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

/-- The same run, keeping the two result arrays at the proof data's final contents. -/
theorem value_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v30_0) = (dats 0 c).arrAt 8 cfg0.N
      ∧ r.2.mem ((c.tc : Thread nD τ).loc main_v30_1) = (dats 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c).1 8, (h c).1 9, ((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

end Cert.Kernel.Fr

end
-- ==== Proof.BodyTermBits.lean ====
/-
  What one grid point's body stores, as two pure terms of the eight blocks it reads.

  The body reads the node's input rows (`x0`), the summed child states (`x1`), the four children's memory rows (`x2`)
  and hidden rows (`x3`), and the four stacked weight matrices and bias rows of the input side (`x4`, `x5`) and of the
  state side (`x6`, `x7`). Every intermediate value is a named composite of those reads; `cellBlk` is the block of the
  new memory and `hidBlk` the block of the new hidden state. Stated for any float family.
-/
import proofs.«170643_j27986006900855_1_alg».proof.Proof.Gen.Kernel.Skeleton
import Idealize.ShloMosaic.Lib.Pipeline.FrameBody

noncomputable section

namespace Cert.Kernel.Body

open Idealize.ShloMosaic Idealize.ShloMosaic.TcCoe Idealize.SL.Sem Cert.Kernel Cert.Kernel.Gen

variable {F : FTy → Type} [FloatOps F]

/-- A whole 512 × 512 block. -/
abbrev rAll : Rect S512x512 := Rect.unit (s := S512x512) ![0, 0] S512x512.size inb_S512x512_S512x512_0_0
/-- Slab `g` of a stack of four 512 × 512 matrices. -/
abbrev rMat0 : Rect S4x512x512 := Rect.unit (s := S4x512x512) ![0, 0, 0] S1x512x512.size inb_S4x512x512_S1x512x512_0_0_0
abbrev rMat1 : Rect S4x512x512 := Rect.unit (s := S4x512x512) ![1, 0, 0] S1x512x512.size inb_S4x512x512_S1x512x512_1_0_0
abbrev rMat2 : Rect S4x512x512 := Rect.unit (s := S4x512x512) ![2, 0, 0] S1x512x512.size inb_S4x512x512_S1x512x512_2_0_0
abbrev rMat3 : Rect S4x512x512 := Rect.unit (s := S4x512x512) ![3, 0, 0] S1x512x512.size inb_S4x512x512_S1x512x512_3_0_0
/-- Row `g` of a stack of four bias rows. -/
abbrev rRow0 : Rect S4x512 := Rect.unit (s := S4x512) ![0, 0] S1x512.size inb_S4x512_S1x512_0_0
abbrev rRow1 : Rect S4x512 := Rect.unit (s := S4x512) ![1, 0] S1x512.size inb_S4x512_S1x512_1_0
abbrev rRow2 : Rect S4x512 := Rect.unit (s := S4x512) ![2, 0] S1x512.size inb_S4x512_S1x512_2_0
abbrev rRow3 : Rect S4x512 := Rect.unit (s := S4x512) ![3, 0] S1x512.size inb_S4x512_S1x512_3_0

variable (x0 x1 : Vec F S512x512 .f32) (x2 x3 : Vec F S4x512x512 .f32) (x4 : Vec F S4x512x512 .bf16) (x5 : Vec F S4x512 .f32)
  (x6 : Vec F S4x512x512 .bf16) (x7 : Vec F S4x512 .f32)

/-- The input rows and the summed child states, narrowed for the matrix unit. -/
def xin : FVec F S512x512 .bf16 := k0_pay3 (View.ld x0 rAll)
def hsum : FVec F S512x512 .bf16 := k0_pay4 (View.ld x1 rAll)
/-- The input gate. -/
def gateI : FVec F S512x512 .f32 :=
  k0_pay5 (View.ld x0 rAll) (View.ld x1 rAll) (View.ld x4 rMat0) (View.ld x5 rRow0) (View.ld x6 rMat0) (View.ld x7 rRow0)
/-- The update's input half and state half (before the state side's bias). -/
def updX : FVec F S512x512 .f32 := k0_pay6 (View.ld x0 rAll) (View.ld x4 rMat2) (View.ld x5 rRow2)
def updH : FVec F S512x512 .f32 := k0_pay7 (View.ld x1 rAll) (View.ld x6 rMat2)
/-- The output gate. -/
def gateO : FVec F S512x512 .f32 :=
  k0_pay8 (xin x0) (hsum x1) (View.ld x4 rMat3) (View.ld x5 rRow3) (View.ld x6 rMat3) (View.ld x7 rRow3)
/-- The forget gates' shared input half. -/
def forgetX : FVec F S512x512 .f32 := k0_pay9 (xin x0) (View.ld x4 rMat1) (View.ld x5 rRow1)
/-- Input gate times update. -/
def gateIU : FVec F S512x512 .f32 := k0_pay10 (gateI x0 x1 x4 x5 x6 x7) (updX x0 x4 x5) (updH x1 x6) (View.ld x7 rRow2)
/-- The forget gates' state-side matrix and bias row. -/
def forgetW : FVec F S512x512 .bf16 := k0_pay11 (View.ld x6 rMat1)
def forgetB : FVec F S512 .f32 := k0_pay12 (View.ld x7 rRow1)
/-- The memory after children 0 and 1. -/
def acc01 : FVec F S512x512 .f32 :=
  k0_pay13 (forgetX x0 x4 x5) (gateIU x0 x1 x4 x5 x6 x7) (forgetW x6) (View.ld x7 rRow1)
    (View.ld x3 rMat0) (View.ld x2 rMat0) (View.ld x3 rMat1) (View.ld x2 rMat1)
/-- Child 2's forget gate. -/
def forget2 : FVec F S512x512 .f32 := k0_pay14 (forgetX x0 x4 x5) (forgetW x6) (View.ld x7 rRow1) (View.ld x3 rMat2)

/-- The block of the new memory. -/
def cellBlk : FVec F S512x512 .f32 :=
  k0_pay1 (forgetX x0 x4 x5) (forgetW x6) (forgetB x7) (acc01 x0 x1 x2 x3 x4 x5 x6 x7) (forget2 x0 x3 x4 x5 x6 x7)
    (View.ld x2 rMat2) (View.ld x3 rMat3) (View.ld x2 rMat3)
/-- The block of the new hidden state. -/
def hidBlk : FVec F S512x512 .f32 :=
  k0_pay2 (gateO x0 x1 x4 x5 x6 x7) (forgetX x0 x4 x5) (forgetW x6) (forgetB x7) (acc01 x0 x1 x2 x3 x4 x5 x6 x7)
    (forget2 x0 x3 x4 x5 x6 x7) (View.ld x2 rMat2) (View.ld x3 rMat3) (View.ld x2 rMat3)

end Cert.Kernel.Body

end
-- ==== Proof.BodyRunBits.lean ====
/-
  One grid point's body, run once on whole staging buffers.

  With the eight input buffers at contents `x0 … x7` and the two output buffers at anything, the body terminates
  without a fault, leaves the inputs as they were, the memory's buffer at `out8` and the hidden state's at `out9`:
  each output is written by one store that covers its whole 512 × 512 buffer, so what it holds afterwards is that
  store's value, `cellBlk` resp. `hidBlk` of the inputs. (The body also loads each output buffer once before
  storing into it; the loaded value is used nowhere.) Stated for any float family.
-/
import proofs.«170643_j27986006900855_1_alg».proof.Proof.BodyTermBits
import proofs.«170643_j27986006900855_1_alg».proof.Proof.Gen.Kernel.Launch
import proofs.«170643_j27986006900855_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

/-- The memory's staging buffer after the body: one store over the whole buffer. -/
def out8 (x0 x1 : Vec F S512x512 .f32) (x2 x3 : Vec F S4x512x512 .f32) (x4 : Vec F S4x512x512 .bf16) (x5 : Vec F S4x512 .f32) (x6 : Vec F S4x512x512 .bf16) (x7 : Vec F S4x512 .f32) : Vec F S512x512 .f32 :=
  View.canon [⟨rAll, cellBlk x0 x1 x2 x3 x4 x5 x6 x7⟩]
/-- The hidden state's staging buffer after the body: one store over the whole buffer. -/
def out9 (x0 x1 : Vec F S512x512 .f32) (x2 x3 : Vec F S4x512x512 .f32) (x4 : Vec F S4x512x512 .bf16) (x5 : Vec F S4x512 .f32) (x6 : Vec F S4x512x512 .bf16) (x7 : Vec F S4x512 .f32) : Vec F S512x512 .f32 :=
  View.canon [⟨rAll, hidBlk x0 x1 x2 x3 x4 x5 x6 x7⟩]

/-- A store over the whole 512 × 512 buffer covers it. -/
theorem coverAll (p0 : Vec F S512x512 .f32) (y : S512x512.Idx) :
    ∃ pc ∈ ([⟨rAll, p0⟩] : List (View.Piece (Elt F) S512x512 .f32)), y ∈ pc.1.set :=
  View.cover_of_tiled [⟨rAll, p0⟩] S512x512.size (by rfl) y

set_option maxHeartbeats 4000000 in
/-- The body's triple. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S4x512x512 .f32) (harg3 : arg3.IsWhole) (arg4 : Memref sig .tc .vmem S4x512x512 .f32) (harg4 : arg4.IsWhole) (arg5 : Memref sig .tc .vmem S4x512x512 .bf16) (harg5 : arg5.IsWhole) (arg6 : Memref sig .tc .vmem S4x512 .f32) (harg6 : arg6.IsWhole) (arg7 : Memref sig .tc .vmem S4x512x512 .bf16) (harg7 : arg7.IsWhole) (arg8 : Memref sig .tc .vmem S4x512 .f32) (harg8 : arg8.IsWhole) (arg9 : Memref sig .tc .vmem S512x512 .f32) (harg9 : arg9.IsWhole) (arg10 : Memref sig .tc .vmem S512x512 .f32) (harg10 : arg10.IsWhole)
    (x0 x1 : Vec F S512x512 .f32) (x2 x3 : Vec F S4x512x512 .f32) (x4 : Vec F S4x512x512 .bf16) (x5 : Vec F S4x512 .f32) (x6 : Vec F S4x512x512 .bf16) (x7 : Vec F S4x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7) ∗ owns (c : Thread nD τ) arg10 fullShare (out9 x0 x1 x2 x3 x4 x5 x6 x7)) -∗ K ⟨⟩))
      ⊢ wp frame (wpE (defs₀ (F := F)) Variants.none c none) E (cc0__tree_lstm_kernel i arg1 harg1 arg2 harg2 arg3 harg3 arg4 harg4 arg5 harg5 arg6 harg6 arg7 harg7 arg8 harg8 arg9 harg9 arg10 harg10) K := by
  simp only [cc0__tree_lstm_kernel_eq_skeleton]; unfold cc0__tree_lstm_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverAll _)
  iexists _; isplitr
  swap; · iexact H9
  ipureintro
  try dsimp only
  exact View.read_writes_eq_canon _ _ _ (coverAll _)

end Cert.Kernel.Fr

end
-- ==== Proof.FrameBits.lean ====
/-
  The region's run: proof data, the body at every grid point, and the frame.

  On core `c` the pipeline's arrays are the region-entry contents. After the body at grid point `t` each of the eight
  input buffers still holds its block of its array, the memory's buffer holds `out8` and the hidden state's `out9` of
  those eight blocks. Every point is the one body triple applied to that point's blocks, so the region runs to the end
  without a fault; afterwards each pipeline array is what the proof data compute and every other buffer is untouched,
  which gives the frame (the twenty arguments unchanged) and, kept for the value claim, the two results at the proof
  data's final arrays. Stated for any float family.
-/
import proofs.«170643_j27986006900855_1_alg».proof.Proof.LaunchBits
import proofs.«170643_j27986006900855_1_alg».proof.Proof.BodyRunBits

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
    | ⟨9, _⟩ => out9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, nothing faulting, with every array of the pipeline at what the
    proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and the twenty arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- The same run with the two results named: the pipeline's final arrays of the memory and of the hidden state. -/
theorem run_results : θ_run defs (onTc (τ := τ) (main (F := F))) ⟨m, fun _ => 0, ρ⟩ (fun r => ∀ c : Dev nD,
      r.2.mem ((c.tc : Thread nD τ).loc main_v30_0) = (dats m 0 c).arrAt 8 cfg0.N
      ∧ r.2.mem ((c.tc : Thread nD τ).loc main_v30_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  value_of m ρ (dats m) (A_eq m) (run_main m ρ)

end Cert.Kernel.Fr

end
-- ==== Proof.LaunchIdeal.lean ====
/-
  @main up to its one region, and what a run of the region gives back.

  @main is thirty host operations (four transposed weight matrices stacked and narrowed, twice; four bias rows stacked,
  twice) followed by the region. None of them writes an argument array, so the region finds every argument as launched
  (`V_main_argK`); an input window's staging buffer holds its block at every grid point, fetched there or not
  (`beforeW_of`); and a run that ends with every array of the pipeline at what the proof data say and every other
  unscoped buffer as the region found it leaves the twenty arguments unchanged (`frame_of`) with the two results at the
  proof data's final arrays (`value_of`). Stated for any float family.
-/
import proofs.«170643_j27986006900855_1_alg».proof.Proof.Gen.KernelIdeal.Launch
import proofs.«170643_j27986006900855_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## @main up to the region -/

/-- Core `c`'s TensorCore buffers when the region is entered: after the thirty host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.unary_writes, StableHlo.nary_writes, Finset.mem_singleton]
    repeat' apply And.intro
    all_goals exact StableHlo.devRef_ne_of_ne (by decide)))
/-- No host operation before the region writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.unary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point: where it is not fetched the block index
    has not moved since the point that fetched it, and the body leaves input buffers as it found them. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## What a run of the region gives back -/

/-- The twenty arguments end as launched: a staged one is its pipeline array, which the transfers only read; the
    others are buffers the region does not touch. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

/-- The same run, keeping the two result arrays at the proof data's final contents. -/
theorem value_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v30_0) = (dats 0 c).arrAt 8 cfg0.N
      ∧ r.2.mem ((c.tc : Thread nD τ).loc main_v30_1) = (dats 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c).1 8, (h c).1 9, ((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).1 1).trans (((dats 0 c).arrAt_in 1 rfl _).trans ((hA c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

end Cert.KernelIdeal.Fr

end
-- ==== Proof.BodyTermIdeal.lean ====
/-
  What one grid point's body stores, as two pure terms of the eight blocks it reads.

  The body reads the node's input rows (`x0`), the summed child states (`x1`), the four children's memory rows (`x2`)
  and hidden rows (`x3`), and the four stacked weight matrices and bias rows of the input side (`x4`, `x5`) and of the
  state side (`x6`, `x7`). Every intermediate value is a named composite of those reads; `cellBlk` is the block of the
  new memory and `hidBlk` the block of the new hidden state. Stated for any float family.
-/
import proofs.«170643_j27986006900855_1_alg».proof.Proof.Gen.KernelIdeal.Skeleton
import Idealize.ShloMosaic.Lib.Pipeline.FrameBody

noncomputable section

namespace Cert.KernelIdeal.Body

open Idealize.ShloMosaic Idealize.ShloMosaic.TcCoe Idealize.SL.Sem Cert.KernelIdeal Cert.KernelIdeal.Gen

variable {F : FTy → Type} [FloatOps F]

/-- A whole 512 × 512 block. -/
abbrev rAll : Rect S512x512 := Rect.unit (s := S512x512) ![0, 0] S512x512.size inb_S512x512_S512x512_0_0
/-- Slab `g` of a stack of four 512 × 512 matrices. -/
abbrev rMat0 : Rect S4x512x512 := Rect.unit (s := S4x512x512) ![0, 0, 0] S1x512x512.size inb_S4x512x512_S1x512x512_0_0_0
abbrev rMat1 : Rect S4x512x512 := Rect.unit (s := S4x512x512) ![1, 0, 0] S1x512x512.size inb_S4x512x512_S1x512x512_1_0_0
abbrev rMat2 : Rect S4x512x512 := Rect.unit (s := S4x512x512) ![2, 0, 0] S1x512x512.size inb_S4x512x512_S1x512x512_2_0_0
abbrev rMat3 : Rect S4x512x512 := Rect.unit (s := S4x512x512) ![3, 0, 0] S1x512x512.size inb_S4x512x512_S1x512x512_3_0_0
/-- Row `g` of a stack of four bias rows. -/
abbrev rRow0 : Rect S4x512 := Rect.unit (s := S4x512) ![0, 0] S1x512.size inb_S4x512_S1x512_0_0
abbrev rRow1 : Rect S4x512 := Rect.unit (s := S4x512) ![1, 0] S1x512.size inb_S4x512_S1x512_1_0
abbrev rRow2 : Rect S4x512 := Rect.unit (s := S4x512) ![2, 0] S1x512.size inb_S4x512_S1x512_2_0
abbrev rRow3 : Rect S4x512 := Rect.unit (s := S4x512) ![3, 0] S1x512.size inb_S4x512_S1x512_3_0

variable (x0 x1 : Vec F S512x512 .f32) (x2 x3 : Vec F S4x512x512 .f32) (x4 : Vec F S4x512x512 .bf16) (x5 : Vec F S4x512 .f32)
  (x6 : Vec F S4x512x512 .bf16) (x7 : Vec F S4x512 .f32)

/-- The input rows and the summed child states, narrowed for the matrix unit. -/
def xin : FVec F S512x512 .bf16 := k0_pay3 (View.ld x0 rAll)
def hsum : FVec F S512x512 .bf16 := k0_pay4 (View.ld x1 rAll)
/-- The input gate. -/
def gateI : FVec F S512x512 .f32 :=
  k0_pay5 (View.ld x0 rAll) (View.ld x1 rAll) (View.ld x4 rMat0) (View.ld x5 rRow0) (View.ld x6 rMat0) (View.ld x7 rRow0)
/-- The update's input half and state half (before the state side's bias). -/
def updX : FVec F S512x512 .f32 := k0_pay6 (View.ld x0 rAll) (View.ld x4 rMat2) (View.ld x5 rRow2)
def updH : FVec F S512x512 .f32 := k0_pay7 (View.ld x1 rAll) (View.ld x6 rMat2)
/-- The output gate. -/
def gateO : FVec F S512x512 .f32 :=
  k0_pay8 (xin x0) (hsum x1) (View.ld x4 rMat3) (View.ld x5 rRow3) (View.ld x6 rMat3) (View.ld x7 rRow3)
/-- The forget gates' shared input half. -/
def forgetX : FVec F S512x512 .f32 := k0_pay9 (xin x0) (View.ld x4 rMat1) (View.ld x5 rRow1)
/-- Input gate times update. -/
def gateIU : FVec F S512x512 .f32 := k0_pay10 (gateI x0 x1 x4 x5 x6 x7) (updX x0 x4 x5) (updH x1 x6) (View.ld x7 rRow2)
/-- The forget gates' state-side matrix and bias row. -/
def forgetW : FVec F S512x512 .bf16 := k0_pay11 (View.ld x6 rMat1)
def forgetB : FVec F S512 .f32 := k0_pay12 (View.ld x7 rRow1)
/-- The memory after children 0 and 1. -/
def acc01 : FVec F S512x512 .f32 :=
  k0_pay13 (forgetX x0 x4 x5) (gateIU x0 x1 x4 x5 x6 x7) (forgetW x6) (View.ld x7 rRow1)
    (View.ld x3 rMat0) (View.ld x2 rMat0) (View.ld x3 rMat1) (View.ld x2 rMat1)
/-- Child 2's forget gate. -/
def forget2 : FVec F S512x512 .f32 := k0_pay14 (forgetX x0 x4 x5) (forgetW x6) (View.ld x7 rRow1) (View.ld x3 rMat2)

/-- The block of the new memory. -/
def cellBlk : FVec F S512x512 .f32 :=
  k0_pay1 (forgetX x0 x4 x5) (forgetW x6) (forgetB x7) (acc01 x0 x1 x2 x3 x4 x5 x6 x7) (forget2 x0 x3 x4 x5 x6 x7)
    (View.ld x2 rMat2) (View.ld x3 rMat3) (View.ld x2 rMat3)
/-- The block of the new hidden state. -/
def hidBlk : FVec F S512x512 .f32 :=
  k0_pay2 (gateO x0 x1 x4 x5 x6 x7) (forgetX x0 x4 x5) (forgetW x6) (forgetB x7) (acc01 x0 x1 x2 x3 x4 x5 x6 x7)
    (forget2 x0 x3 x4 x5 x6 x7) (View.ld x2 rMat2) (View.ld x3 rMat3) (View.ld x2 rMat3)

end Cert.KernelIdeal.Body

end
-- ==== Proof.BodyRunIdeal.lean ====
/-
  One grid point's body, run once on whole staging buffers.

  With the eight input buffers at contents `x0 … x7` and the two output buffers at anything, the body terminates
  without a fault, leaves the inputs as they were, the memory's buffer at `out8` and the hidden state's at `out9`:
  each output is written by one store that covers its whole 512 × 512 buffer, so what it holds afterwards is that
  store's value, `cellBlk` resp. `hidBlk` of the inputs. (The body also loads each output buffer once before
  storing into it; the loaded value is used nowhere.) Stated for any float family.
-/
import proofs.«170643_j27986006900855_1_alg».proof.Proof.BodyTermIdeal
import proofs.«170643_j27986006900855_1_alg».proof.Proof.Gen.KernelIdeal.Launch
import proofs.«170643_j27986006900855_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

/-- The memory's staging buffer after the body: one store over the whole buffer. -/
def out8 (x0 x1 : Vec F S512x512 .f32) (x2 x3 : Vec F S4x512x512 .f32) (x4 : Vec F S4x512x512 .bf16) (x5 : Vec F S4x512 .f32) (x6 : Vec F S4x512x512 .bf16) (x7 : Vec F S4x512 .f32) : Vec F S512x512 .f32 :=
  View.canon [⟨rAll, cellBlk x0 x1 x2 x3 x4 x5 x6 x7⟩]
/-- The hidden state's staging buffer after the body: one store over the whole buffer. -/
def out9 (x0 x1 : Vec F S512x512 .f32) (x2 x3 : Vec F S4x512x512 .f32) (x4 : Vec F S4x512x512 .bf16) (x5 : Vec F S4x512 .f32) (x6 : Vec F S4x512x512 .bf16) (x7 : Vec F S4x512 .f32) : Vec F S512x512 .f32 :=
  View.canon [⟨rAll, hidBlk x0 x1 x2 x3 x4 x5 x6 x7⟩]

/-- A store over the whole 512 × 512 buffer covers it. -/
theorem coverAll (p0 : Vec F S512x512 .f32) (y : S512x512.Idx) :
    ∃ pc ∈ ([⟨rAll, p0⟩] : List (View.Piece (Elt F) S512x512 .f32)), y ∈ pc.1.set :=
  View.cover_of_tiled [⟨rAll, p0⟩] S512x512.size (by rfl) y

set_option maxHeartbeats 4000000 in
/-- The body's triple. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S4x512x512 .f32) (harg3 : arg3.IsWhole) (arg4 : Memref sig .tc .vmem S4x512x512 .f32) (harg4 : arg4.IsWhole) (arg5 : Memref sig .tc .vmem S4x512x512 .bf16) (harg5 : arg5.IsWhole) (arg6 : Memref sig .tc .vmem S4x512 .f32) (harg6 : arg6.IsWhole) (arg7 : Memref sig .tc .vmem S4x512x512 .bf16) (harg7 : arg7.IsWhole) (arg8 : Memref sig .tc .vmem S4x512 .f32) (harg8 : arg8.IsWhole) (arg9 : Memref sig .tc .vmem S512x512 .f32) (harg9 : arg9.IsWhole) (arg10 : Memref sig .tc .vmem S512x512 .f32) (harg10 : arg10.IsWhole)
    (x0 x1 : Vec F S512x512 .f32) (x2 x3 : Vec F S4x512x512 .f32) (x4 : Vec F S4x512x512 .bf16) (x5 : Vec F S4x512 .f32) (x6 : Vec F S4x512x512 .bf16) (x7 : Vec F S4x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out8 x0 x1 x2 x3 x4 x5 x6 x7) ∗ owns (c : Thread nD τ) arg10 fullShare (out9 x0 x1 x2 x3 x4 x5 x6 x7)) -∗ K ⟨⟩))
      ⊢ wp frame (wpE (defs₀ (F := F)) Variants.none c none) E (cc0__tree_lstm_kernel i arg1 harg1 arg2 harg2 arg3 harg3 arg4 harg4 arg5 harg5 arg6 harg6 arg7 harg7 arg8 harg8 arg9 harg9 arg10 harg10) K := by
  simp only [cc0__tree_lstm_kernel_eq_skeleton]; unfold cc0__tree_lstm_kernel_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (coverAll _)
  iexists _; isplitr
  swap; · iexact H9
  ipureintro
  try dsimp only
  exact View.read_writes_eq_canon _ _ _ (coverAll _)

end Cert.KernelIdeal.Fr

end
-- ==== Proof.FrameIdeal.lean ====
/-
  The region's run: proof data, the body at every grid point, and the frame.

  On core `c` the pipeline's arrays are the region-entry contents. After the body at grid point `t` each of the eight
  input buffers still holds its block of its array, the memory's buffer holds `out8` and the hidden state's `out9` of
  those eight blocks. Every point is the one body triple applied to that point's blocks, so the region runs to the end
  without a fault; afterwards each pipeline array is what the proof data compute and every other buffer is untouched,
  which gives the frame (the twenty arguments unchanged) and, kept for the value claim, the two results at the proof
  data's final arrays. Stated for any float family.
-/
import proofs.«170643_j27986006900855_1_alg».proof.Proof.LaunchIdeal
import proofs.«170643_j27986006900855_1_alg».proof.Proof.BodyRunIdeal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The one pipeline's proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
    | ⟨9, _⟩ => out9 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]
theorem after9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, nothing faulting, with every array of the pipeline at what the
    proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and the twenty arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

/-- The same run with the two results named: the pipeline's final arrays of the memory and of the hidden state. -/
theorem run_results : θ_run defs (onTc (τ := τ) (main (F := F))) ⟨m, fun _ => 0, ρ⟩ (fun r => ∀ c : Dev nD,
      r.2.mem ((c.tc : Thread nD τ).loc main_v30_0) = (dats m 0 c).arrAt 8 cfg0.N
      ∧ r.2.mem ((c.tc : Thread nD τ).loc main_v30_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  value_of m ρ (dats m) (A_eq m) (run_main m ρ)

end Cert.KernelIdeal.Fr

end
-- ==== Proof.HostArrays.lean ====
/-
  What the four arrays hold that the host builds before the one kernel region.

  Before the region, the host stacks the four input-side weight matrices, each transposed, into one [4, 512, 512] array
  (narrowed to bf16, which on the extended reals changes nothing), does the same for the four state-side matrices, and
  stacks the four input-side bias vectors as the rows of one [4, 512] array, and likewise the four state-side ones.
  Read entry by entry: slab `g` of a weight stack at `(j, q)` is matrix `g` at `(q, j)`, and row `g` of a bias stack at
  `q` is vector `g` at `q`.

  First the pure facts, over arbitrary arrays: a broadcast to a leading unit axis, a matrix transpose, and a
  concatenation of four unit-extent pieces along axis 0, each read at an index given by coordinates. Then each of the
  four arrays as a term of the argument arrays, and the sixteen entry facts.
-/
import proofs.«170643_j27986006900855_1_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostArrays

open Idealize.ShloMosaic Idealize.ShloMosaic.TcCoe Idealize.SL.Sem Cert.KernelIdeal Cert.KernelIdeal.Gen Idealize.ShloMosaic.ValueIdx

/-! ## Pure facts -/

section Pure
variable {α : Type}

/-- A vector broadcast to a one-row matrix reads, in that row at column `q`, the vector at `q`. -/
theorem bcastRow_apply (x : S512.Idx → α) (q : Fin 512) :
    broadcastInDim S1x512 ![1] bcast_S512_S1x512_1 x (ix2 (0 : Fin 1) q) = x (ix1 q) :=
  broadcastInDim_apply _ _ x _ _ fun a => match a with | ⟨0, _⟩ => rfl

/-- A matrix broadcast to a one-slab stack reads, in that slab at `(j, q)`, the matrix at `(j, q)`. -/
theorem bcastMat_apply (x : S512x512.Idx → α) (j q : Fin 512) :
    broadcastInDim S1x512x512 ![1, 2] bcast_S512x512_S1x512x512_1_2 x (ix3 (0 : Fin 1) j q) = x (ix2 j q) :=
  broadcastInDim_apply _ _ x _ _ fun a => match a with | ⟨0, _⟩ => rfl | ⟨1, _⟩ => rfl

/-- The transposed matrix at `(j, q)` is the matrix at `(q, j)`. -/
theorem transposeMat_apply (x : S512x512.Idx → α) (j q : Fin 512) :
    transpose S512x512 [1, 0] x transposes_S512x512_S512x512_1_0 (ix2 j q) = x (ix2 q j) :=
  transpose_ix2_apply x transposes_S512x512_S512x512_1_0 j q

/-- One slab of a weight stack before stacking: the transposed matrix under a leading unit axis, at `(0, j, q)`, is the
    matrix at `(q, j)`. -/
theorem slabPiece_apply (W : S512x512.Idx → α) (j q : Fin 512) :
    broadcastInDim S1x512x512 ![1, 2] bcast_S512x512_S1x512x512_1_2
        (transpose S512x512 [1, 0] W transposes_S512x512_S512x512_1_0) (ix3 (0 : Fin 1) j q) = W (ix2 q j) := by
  rw [bcastMat_apply, transposeMat_apply]

/-- Off the stacking axis a row piece's index and the stack's index have the same coordinates. -/
theorem rows_off_axis (g : Fin 4) (q : Fin 512) (b : Fin S1x512.rank)
    (hb : b.cast (rfl : S1x512.rank = S4x512.rank) ≠ (0 : Fin S4x512.rank)) :
    ((ix2 (0 : Fin 1) q : S1x512.Idx) b).val = ((ix2 g q : S4x512.Idx) (b.cast (rfl : S1x512.rank = S4x512.rank))).val :=
  match b, hb with
  | ⟨0, _⟩, hb => absurd rfl hb
  | ⟨1, _⟩, _ => rfl

/-- Off the stacking axis a slab piece's index and the stack's index have the same coordinates. -/
theorem slabs_off_axis (g : Fin 4) (j q : Fin 512) (b : Fin S1x512x512.rank)
    (hb : b.cast (rfl : S1x512x512.rank = S4x512x512.rank) ≠ (0 : Fin S4x512x512.rank)) :
    ((ix3 (0 : Fin 1) j q : S1x512x512.Idx) b).val
      = ((ix3 g j q : S4x512x512.Idx) (b.cast (rfl : S1x512x512.rank = S4x512x512.rank))).val :=
  match b, hb with
  | ⟨0, _⟩, hb => absurd rfl hb
  | ⟨1, _⟩, _ => rfl
  | ⟨2, _⟩, _ => rfl

variable (u0 u1 u2 u3 : S1x512.Idx → α) (w0 w1 w2 w3 : S1x512x512.Idx → α)

/-- Four one-row pieces stacked: row 0 of the stack is piece 0. -/
theorem rows_at0 (q : Fin 512) :
    concatenate S4x512 0 [⟨S1x512, u0⟩, ⟨S1x512, u1⟩, ⟨S1x512, u2⟩, ⟨S1x512, u3⟩]
        concatenates_S1x512_S1x512_S1x512_S1x512_S4x512_d0 (ix2 (0 : Fin 4) q) = u0 (ix2 (0 : Fin 1) q) :=
  concatenate_apply_piece (t := S4x512) 0 [⟨S1x512, u0⟩, ⟨S1x512, u1⟩, ⟨S1x512, u2⟩, ⟨S1x512, u3⟩]
    concatenates_S1x512_S1x512_S1x512_S1x512_S4x512_d0 (ix2 (0 : Fin 4) q) 0 (by show 0 < 4; omega) S1x512 u0 rfl rfl 0 rfl
    (ix2 (0 : Fin 1) q) (rows_off_axis 0 q) rfl
/-- Row 1 of the stack is piece 1. -/
theorem rows_at1 (q : Fin 512) :
    concatenate S4x512 0 [⟨S1x512, u0⟩, ⟨S1x512, u1⟩, ⟨S1x512, u2⟩, ⟨S1x512, u3⟩]
        concatenates_S1x512_S1x512_S1x512_S1x512_S4x512_d0 (ix2 (1 : Fin 4) q) = u1 (ix2 (0 : Fin 1) q) :=
  concatenate_apply_piece (t := S4x512) 0 [⟨S1x512, u0⟩, ⟨S1x512, u1⟩, ⟨S1x512, u2⟩, ⟨S1x512, u3⟩]
    concatenates_S1x512_S1x512_S1x512_S1x512_S4x512_d0 (ix2 (1 : Fin 4) q) 1 (by show 1 < 4; omega) S1x512 u1 rfl rfl 1 rfl
    (ix2 (0 : Fin 1) q) (rows_off_axis 1 q) rfl
/-- Row 2 of the stack is piece 2. -/
theorem rows_at2 (q : Fin 512) :
    concatenate S4x512 0 [⟨S1x512, u0⟩, ⟨S1x512, u1⟩, ⟨S1x512, u2⟩, ⟨S1x512, u3⟩]
        concatenates_S1x512_S1x512_S1x512_S1x512_S4x512_d0 (ix2 (2 : Fin 4) q) = u2 (ix2 (0 : Fin 1) q) :=
  concatenate_apply_piece (t := S4x512) 0 [⟨S1x512, u0⟩, ⟨S1x512, u1⟩, ⟨S1x512, u2⟩, ⟨S1x512, u3⟩]
    concatenates_S1x512_S1x512_S1x512_S1x512_S4x512_d0 (ix2 (2 : Fin 4) q) 2 (by show 2 < 4; omega) S1x512 u2 rfl rfl 2 rfl
    (ix2 (0 : Fin 1) q) (rows_off_axis 2 q) rfl
/-- Row 3 of the stack is piece 3. -/
theorem rows_at3 (q : Fin 512) :
    concatenate S4x512 0 [⟨S1x512, u0⟩, ⟨S1x512, u1⟩, ⟨S1x512, u2⟩, ⟨S1x512, u3⟩]
        concatenates_S1x512_S1x512_S1x512_S1x512_S4x512_d0 (ix2 (3 : Fin 4) q) = u3 (ix2 (0 : Fin 1) q) :=
  concatenate_apply_piece (t := S4x512) 0 [⟨S1x512, u0⟩, ⟨S1x512, u1⟩, ⟨S1x512, u2⟩, ⟨S1x512, u3⟩]
    concatenates_S1x512_S1x512_S1x512_S1x512_S4x512_d0 (ix2 (3 : Fin 4) q) 3 (by show 3 < 4; omega) S1x512 u3 rfl rfl 3 rfl
    (ix2 (0 : Fin 1) q) (rows_off_axis 3 q) rfl

/-- Four one-slab pieces stacked: slab 0 of the stack is piece 0. -/
theorem slabs_at0 (j q : Fin 512) :
    concatenate S4x512x512 0 [⟨S1x512x512, w0⟩, ⟨S1x512x512, w1⟩, ⟨S1x512x512, w2⟩, ⟨S1x512x512, w3⟩]
        concatenates_S1x512x512_S1x512x512_S1x512x512_S1x512x512_S4x512x512_d0 (ix3 (0 : Fin 4) j q) = w0 (ix3 (0 : Fin 1) j q) :=
  concatenate_apply_piece (t := S4x512x512) 0 [⟨S1x512x512, w0⟩, ⟨S1x512x512, w1⟩, ⟨S1x512x512, w2⟩, ⟨S1x512x512, w3⟩]
    concatenates_S1x512x512_S1x512x512_S1x512x512_S1x512x512_S4x512x512_d0 (ix3 (0 : Fin 4) j q) 0 (by show 0 < 4; omega)
    S1x512x512 w0 rfl rfl 0 rfl (ix3 (0 : Fin 1) j q) (slabs_off_axis 0 j q) rfl
/-- Slab 1 of the stack is piece 1. -/
theorem slabs_at1 (j q : Fin 512) :
    concatenate S4x512x512 0 [⟨S1x512x512, w0⟩, ⟨S1x512x512, w1⟩, ⟨S1x512x512, w2⟩, ⟨S1x512x512, w3⟩]
        concatenates_S1x512x512_S1x512x512_S1x512x512_S1x512x512_S4x512x512_d0 (ix3 (1 : Fin 4) j q) = w1 (ix3 (0 : Fin 1) j q) :=
  concatenate_apply_piece (t := S4x512x512) 0 [⟨S1x512x512, w0⟩, ⟨S1x512x512, w1⟩, ⟨S1x512x512, w2⟩, ⟨S1x512x512, w3⟩]
    concatenates_S1x512x512_S1x512x512_S1x512x512_S1x512x512_S4x512x512_d0 (ix3 (1 : Fin 4) j q) 1 (by show 1 < 4; omega)
    S1x512x512 w1 rfl rfl 1 rfl (ix3 (0 : Fin 1) j q) (slabs_off_axis 1 j q) rfl
/-- Slab 2 of the stack is piece 2. -/
theorem slabs_at2 (j q : Fin 512) :
    concatenate S4x512x512 0 [⟨S1x512x512, w0⟩, ⟨S1x512x512, w1⟩, ⟨S1x512x512, w2⟩, ⟨S1x512x512, w3⟩]
        concatenates_S1x512x512_S1x512x512_S1x512x512_S1x512x512_S4x512x512_d0 (ix3 (2 : Fin 4) j q) = w2 (ix3 (0 : Fin 1) j q) :=
  concatenate_apply_piece (t := S4x512x512) 0 [⟨S1x512x512, w0⟩, ⟨S1x512x512, w1⟩, ⟨S1x512x512, w2⟩, ⟨S1x512x512, w3⟩]
    concatenates_S1x512x512_S1x512x512_S1x512x512_S1x512x512_S4x512x512_d0 (ix3 (2 : Fin 4) j q) 2 (by show 2 < 4; omega)
    S1x512x512 w2 rfl rfl 2 rfl (ix3 (0 : Fin 1) j q) (slabs_off_axis 2 j q) rfl
/-- Slab 3 of the stack is piece 3. -/
theorem slabs_at3 (j q : Fin 512) :
    concatenate S4x512x512 0 [⟨S1x512x512, w0⟩, ⟨S1x512x512, w1⟩, ⟨S1x512x512, w2⟩, ⟨S1x512x512, w3⟩]
        concatenates_S1x512x512_S1x512x512_S1x512x512_S1x512x512_S4x512x512_d0 (ix3 (3 : Fin 4) j q) = w3 (ix3 (0 : Fin 1) j q) :=
  concatenate_apply_piece (t := S4x512x512) 0 [⟨S1x512x512, w0⟩, ⟨S1x512x512, w1⟩, ⟨S1x512x512, w2⟩, ⟨S1x512x512, w3⟩]
    concatenates_S1x512x512_S1x512x512_S1x512x512_S1x512x512_S4x512x512_d0 (ix3 (3 : Fin 4) j q) 3 (by show 3 < 4; omega)
    S1x512x512 w3 rfl rfl 3 rfl (ix3 (0 : Fin 1) j q) (slabs_off_axis 3 j q) rfl

end Pure

/-! ## The four arrays as terms of the arguments -/

variable (m : (ℓ : Loc nD τ sig) → Buf (Elt Ideal) ℓ)

/-- Core `c`'s TensorCore buffers when the region is entered. -/
abbrev V (c : Dev nD) (b : Ref sig .tc) : Buf (Elt Ideal) ((c : Thread nD τ).loc b) :=
  StableHlo.after (hostOps0 (F := Ideal)) (fun b => m (c, b)) b

/-- A weight stack from four matrices: each transposed, given a leading unit axis, the four laid along it. -/
abbrev weightStack (W0 W1 W2 W3 : S512x512.Idx → EReal) : S4x512x512.Idx → EReal :=
  concatenate S4x512x512 0
    [⟨S1x512x512, broadcastInDim S1x512x512 ![1, 2] bcast_S512x512_S1x512x512_1_2 (transpose S512x512 [1, 0] W0 transposes_S512x512_S512x512_1_0)⟩,
     ⟨S1x512x512, broadcastInDim S1x512x512 ![1, 2] bcast_S512x512_S1x512x512_1_2 (transpose S512x512 [1, 0] W1 transposes_S512x512_S512x512_1_0)⟩,
     ⟨S1x512x512, broadcastInDim S1x512x512 ![1, 2] bcast_S512x512_S1x512x512_1_2 (transpose S512x512 [1, 0] W2 transposes_S512x512_S512x512_1_0)⟩,
     ⟨S1x512x512, broadcastInDim S1x512x512 ![1, 2] bcast_S512x512_S1x512x512_1_2 (transpose S512x512 [1, 0] W3 transposes_S512x512_S512x512_1_0)⟩]
    concatenates_S1x512x512_S1x512x512_S1x512x512_S1x512x512_S4x512x512_d0

/-- A bias stack from four vectors: each a one-row matrix, the four rows laid one under the other. -/
abbrev biasStack (b0 b1 b2 b3 : S512.Idx → EReal) : S4x512.Idx → EReal :=
  concatenate S4x512 0
    [⟨S1x512, broadcastInDim S1x512 ![1] bcast_S512_S1x512_1 b0⟩, ⟨S1x512, broadcastInDim S1x512 ![1] bcast_S512_S1x512_1 b1⟩,
     ⟨S1x512, broadcastInDim S1x512 ![1] bcast_S512_S1x512_1 b2⟩, ⟨S1x512, broadcastInDim S1x512 ![1] bcast_S512_S1x512_1 b3⟩]
    concatenates_S1x512_S1x512_S1x512_S1x512_S4x512_d0

/-- The input-side bias stack is built from arguments 5, 7, 9, 11. -/
theorem biasX_eq (c : Dev nD) : (V m c main_v24 : S4x512.Idx → EReal) =
    biasStack (m ((c : Thread nD τ).loc main_arg5)) (m ((c : Thread nD τ).loc main_arg7))
      (m ((c : Thread nD τ).loc main_arg9)) (m ((c : Thread nD τ).loc main_arg11)) := by
  dsimp only [V, hostOps0]
  after_results
  rfl

/-- The state-side bias stack is built from arguments 13, 15, 17, 19. -/
theorem biasH_eq (c : Dev nD) : (V m c main_v29 : S4x512.Idx → EReal) =
    biasStack (m ((c : Thread nD τ).loc main_arg13)) (m ((c : Thread nD τ).loc main_arg15))
      (m ((c : Thread nD τ).loc main_arg17)) (m ((c : Thread nD τ).loc main_arg19)) := by
  dsimp only [V, hostOps0]
  after_results
  rfl

/-- The input-side weight stack is built from arguments 4, 6, 8, 10; the narrowing to bf16 keeps every entry. -/
theorem stackX_eq (c : Dev nD) : (V m c main_v9 : S4x512x512.Idx → EReal) =
    weightStack (m ((c : Thread nD τ).loc main_arg4)) (m ((c : Thread nD τ).loc main_arg6))
      (m ((c : Thread nD τ).loc main_arg8)) (m ((c : Thread nD τ).loc main_arg10)) := by
  dsimp only [V, hostOps0]
  after_results
  rfl

/-- The state-side weight stack is built from arguments 12, 14, 16, 18. -/
theorem stackH_eq (c : Dev nD) : (V m c main_v19 : S4x512x512.Idx → EReal) =
    weightStack (m ((c : Thread nD τ).loc main_arg12)) (m ((c : Thread nD τ).loc main_arg14))
      (m ((c : Thread nD τ).loc main_arg16)) (m ((c : Thread nD τ).loc main_arg18)) := by
  dsimp only [V, hostOps0]
  after_results
  rfl

/-! ## The entries -/

section Entries
variable (W0 W1 W2 W3 : S512x512.Idx → EReal) (b0 b1 b2 b3 : S512.Idx → EReal)

theorem weightStack_at0 (j q : Fin 512) : weightStack W0 W1 W2 W3 (ix3 (0 : Fin 4) j q) = W0 (ix2 q j) := by
  rw [weightStack, slabs_at0, slabPiece_apply]
theorem weightStack_at1 (j q : Fin 512) : weightStack W0 W1 W2 W3 (ix3 (1 : Fin 4) j q) = W1 (ix2 q j) := by
  rw [weightStack, slabs_at1, slabPiece_apply]
theorem weightStack_at2 (j q : Fin 512) : weightStack W0 W1 W2 W3 (ix3 (2 : Fin 4) j q) = W2 (ix2 q j) := by
  rw [weightStack, slabs_at2, slabPiece_apply]
theorem weightStack_at3 (j q : Fin 512) : weightStack W0 W1 W2 W3 (ix3 (3 : Fin 4) j q) = W3 (ix2 q j) := by
  rw [weightStack, slabs_at3, slabPiece_apply]

theorem biasStack_at0 (q : Fin 512) : biasStack b0 b1 b2 b3 (ix2 (0 : Fin 4) q) = b0 (ix1 q) := by
  rw [biasStack, rows_at0, bcastRow_apply]
theorem biasStack_at1 (q : Fin 512) : biasStack b0 b1 b2 b3 (ix2 (1 : Fin 4) q) = b1 (ix1 q) := by
  rw [biasStack, rows_at1, bcastRow_apply]
theorem biasStack_at2 (q : Fin 512) : biasStack b0 b1 b2 b3 (ix2 (2 : Fin 4) q) = b2 (ix1 q) := by
  rw [biasStack, rows_at2, bcastRow_apply]
theorem biasStack_at3 (q : Fin 512) : biasStack b0 b1 b2 b3 (ix2 (3 : Fin 4) q) = b3 (ix1 q) := by
  rw [biasStack, rows_at3, bcastRow_apply]

end Entries

/-- Slab 0 of the input-side weight stack is `W_ix` transposed. -/
theorem wx0 (c : Dev nD) (j q : Fin 512) :
    (V m c main_v9 : S4x512x512.Idx → EReal) (ix3 (0 : Fin 4) j q) = (m ((c : Thread nD τ).loc main_arg4) : S512x512.Idx → EReal) (ix2 q j) := by
  rw [stackX_eq m c, weightStack_at0]
/-- Slab 1 of the input-side weight stack is `W_fx` transposed. -/
theorem wx1 (c : Dev nD) (j q : Fin 512) :
    (V m c main_v9 : S4x512x512.Idx → EReal) (ix3 (1 : Fin 4) j q) = (m ((c : Thread nD τ).loc main_arg6) : S512x512.Idx → EReal) (ix2 q j) := by
  rw [stackX_eq m c, weightStack_at1]
/-- Slab 2 of the input-side weight stack is `W_ux` transposed. -/
theorem wx2 (c : Dev nD) (j q : Fin 512) :
    (V m c main_v9 : S4x512x512.Idx → EReal) (ix3 (2 : Fin 4) j q) = (m ((c : Thread nD τ).loc main_arg8) : S512x512.Idx → EReal) (ix2 q j) := by
  rw [stackX_eq m c, weightStack_at2]
/-- Slab 3 of the input-side weight stack is `W_ox` transposed. -/
theorem wx3 (c : Dev nD) (j q : Fin 512) :
    (V m c main_v9 : S4x512x512.Idx → EReal) (ix3 (3 : Fin 4) j q) = (m ((c : Thread nD τ).loc main_arg10) : S512x512.Idx → EReal) (ix2 q j) := by
  rw [stackX_eq m c, weightStack_at3]

/-- Slab 0 of the state-side weight stack is `W_ih` transposed. -/
theorem wh0 (c : Dev nD) (j q : Fin 512) :
    (V m c main_v19 : S4x512x512.Idx → EReal) (ix3 (0 : Fin 4) j q) = (m ((c : Thread nD τ).loc main_arg12) : S512x512.Idx → EReal) (ix2 q j) := by
  rw [stackH_eq m c, weightStack_at0]
/-- Slab 1 of the state-side weight stack is `W_fh` transposed. -/
theorem wh1 (c : Dev nD) (j q : Fin 512) :
    (V m c main_v19 : S4x512x512.Idx → EReal) (ix3 (1 : Fin 4) j q) = (m ((c : Thread nD τ).loc main_arg14) : S512x512.Idx → EReal) (ix2 q j) := by
  rw [stackH_eq m c, weightStack_at1]
/-- Slab 2 of the state-side weight stack is `W_uh` transposed. -/
theorem wh2 (c : Dev nD) (j q : Fin 512) :
    (V m c main_v19 : S4x512x512.Idx → EReal) (ix3 (2 : Fin 4) j q) = (m ((c : Thread nD τ).loc main_arg16) : S512x512.Idx → EReal) (ix2 q j) := by
  rw [stackH_eq m c, weightStack_at2]
/-- Slab 3 of the state-side weight stack is `W_oh` transposed. -/
theorem wh3 (c : Dev nD) (j q : Fin 512) :
    (V m c main_v19 : S4x512x512.Idx → EReal) (ix3 (3 : Fin 4) j q) = (m ((c : Thread nD τ).loc main_arg18) : S512x512.Idx → EReal) (ix2 q j) := by
  rw [stackH_eq m c, weightStack_at3]

/-- Row 0 of the input-side bias stack is `b_ix`. -/
theorem bx0 (c : Dev nD) (q : Fin 512) :
    (V m c main_v24 : S4x512.Idx → EReal) (ix2 (0 : Fin 4) q) = (m ((c : Thread nD τ).loc main_arg5) : S512.Idx → EReal) (ix1 q) := by
  rw [biasX_eq m c, biasStack_at0]
/-- Row 1 of the input-side bias stack is `b_fx`. -/
theorem bx1 (c : Dev nD) (q : Fin 512) :
    (V m c main_v24 : S4x512.Idx → EReal) (ix2 (1 : Fin 4) q) = (m ((c : Thread nD τ).loc main_arg7) : S512.Idx → EReal) (ix1 q) := by
  rw [biasX_eq m c, biasStack_at1]
/-- Row 2 of the input-side bias stack is `b_ux`. -/
theorem bx2 (c : Dev nD) (q : Fin 512) :
    (V m c main_v24 : S4x512.Idx → EReal) (ix2 (2 : Fin 4) q) = (m ((c : Thread nD τ).loc main_arg9) : S512.Idx → EReal) (ix1 q) := by
  rw [biasX_eq m c, biasStack_at2]
/-- Row 3 of the input-side bias stack is `b_ox`. -/
theorem bx3 (c : Dev nD) (q : Fin 512) :
    (V m c main_v24 : S4x512.Idx → EReal) (ix2 (3 : Fin 4) q) = (m ((c : Thread nD τ).loc main_arg11) : S512.Idx → EReal) (ix1 q) := by
  rw [biasX_eq m c, biasStack_at3]

/-- Row 0 of the state-side bias stack is `b_ih`. -/
theorem bh0 (c : Dev nD) (q : Fin 512) :
    (V m c main_v29 : S4x512.Idx → EReal) (ix2 (0 : Fin 4) q) = (m ((c : Thread nD τ).loc main_arg13) : S512.Idx → EReal) (ix1 q) := by
  rw [biasH_eq m c, biasStack_at0]
/-- Row 1 of the state-side bias stack is `b_fh`. -/
theorem bh1 (c : Dev nD) (q : Fin 512) :
    (V m c main_v29 : S4x512.Idx → EReal) (ix2 (1 : Fin 4) q) = (m ((c : Thread nD τ).loc main_arg15) : S512.Idx → EReal) (ix1 q) := by
  rw [biasH_eq m c, biasStack_at1]
/-- Row 2 of the state-side bias stack is `b_uh`. -/
theorem bh2 (c : Dev nD) (q : Fin 512) :
    (V m c main_v29 : S4x512.Idx → EReal) (ix2 (2 : Fin 4) q) = (m ((c : Thread nD τ).loc main_arg17) : S512.Idx → EReal) (ix1 q) := by
  rw [biasH_eq m c, biasStack_at2]
/-- Row 3 of the state-side bias stack is `b_oh`. -/
theorem bh3 (c : Dev nD) (q : Fin 512) :
    (V m c main_v29 : S4x512.Idx → EReal) (ix2 (3 : Fin 4) q) = (m ((c : Thread nD τ).loc main_arg19) : S512.Idx → EReal) (ix1 q) := by
  rw [biasH_eq m c, biasStack_at3]

end Cert.KernelIdeal.HostArrays

end
-- ==== Proof.Spec.lean ====
/-
  The child-sum Tree-LSTM cell, entry by entry, on the extended reals.

  For a node with input row `x r`, summed child state `hs r` and four children with hidden rows `ch k r` and memory
  rows `cc k r`, every linear layer in the torch layout (`W` is [out, in]: entry `o` of `lin x W b` at row `r` is
  `Σ_j x[r, j] · W[o, j] + b[o]`):

    i = σ(lin x W_ix b_ix + lin hs W_ih b_ih)        o = σ(lin x W_ox b_ox + lin hs W_oh b_oh)
    u = tanh(lin x W_ux b_ux + lin hs W_uh b_uh)     f_k = σ((lin ch_k W_fh b_fh) + lin x W_fx b_fx)
    c = i · u + Σ_k f_k · cc_k                        h = o · tanh c

  with σ(t) = 1 / (1 + e^(−t)). Nothing here mentions a program: both programs' result arrays are proved equal to
  `cellArr` and `hidArr` of their argument arrays. The two ways the four children's terms are added up (folded one by
  one onto `i · u`, or summed from zero and then added) agree because `+` on the extended reals is associative.
-/
import Idealize.ShloMosaic.PureOps.Ideal
import Idealize.ShloMosaic.Lib.ValueIdx

noncomputable section

namespace Cert.TreeLstm

open Idealize.ShloMosaic Idealize.ShloMosaic.ValueIdx

/-- The twenty argument arrays, in the order both programs take them. -/
structure Args where
  x : FVec Ideal ⟨2, ![32768, 512]⟩ .f32
  cc : FVec Ideal ⟨3, ![4, 32768, 512]⟩ .f32
  ch : FVec Ideal ⟨3, ![4, 32768, 512]⟩ .f32
  hs : FVec Ideal ⟨2, ![32768, 512]⟩ .f32
  Wix : FVec Ideal ⟨2, ![512, 512]⟩ .f32
  bix : FVec Ideal ⟨1, ![512]⟩ .f32
  Wfx : FVec Ideal ⟨2, ![512, 512]⟩ .f32
  bfx : FVec Ideal ⟨1, ![512]⟩ .f32
  Wux : FVec Ideal ⟨2, ![512, 512]⟩ .f32
  bux : FVec Ideal ⟨1, ![512]⟩ .f32
  Wox : FVec Ideal ⟨2, ![512, 512]⟩ .f32
  box : FVec Ideal ⟨1, ![512]⟩ .f32
  Wih : FVec Ideal ⟨2, ![512, 512]⟩ .f32
  bih : FVec Ideal ⟨1, ![512]⟩ .f32
  Wfh : FVec Ideal ⟨2, ![512, 512]⟩ .f32
  bfh : FVec Ideal ⟨1, ![512]⟩ .f32
  Wuh : FVec Ideal ⟨2, ![512, 512]⟩ .f32
  buh : FVec Ideal ⟨1, ![512]⟩ .f32
  Woh : FVec Ideal ⟨2, ![512, 512]⟩ .f32
  boh : FVec Ideal ⟨1, ![512]⟩ .f32

/-- One entry of a linear layer in the torch layout: row `r` of `x` against row `o` of `W`, plus the bias. -/
def lin (x : FVec Ideal ⟨2, ![32768, 512]⟩ .f32) (W : FVec Ideal ⟨2, ![512, 512]⟩ .f32) (b : FVec Ideal ⟨1, ![512]⟩ .f32)
    (r : Fin 32768) (o : Fin 512) : EReal :=
  (∑ j : Fin 512, x (ix2 r j) * W (ix2 o j)) + b (ix1 o)

/-- The same for child `k`'s rows of a stacked [4, 32768, 512] array. -/
def linChild (h : FVec Ideal ⟨3, ![4, 32768, 512]⟩ .f32) (W : FVec Ideal ⟨2, ![512, 512]⟩ .f32) (b : FVec Ideal ⟨1, ![512]⟩ .f32)
    (k : Fin 4) (r : Fin 32768) (o : Fin 512) : EReal :=
  (∑ j : Fin 512, h (ix3 k r j) * W (ix2 o j)) + b (ix1 o)

variable (a : Args)

/-- The input gate. -/
def igate (r : Fin 32768) (o : Fin 512) : EReal := Ideal.logistic (lin a.x a.Wix a.bix r o + lin a.hs a.Wih a.bih r o)
/-- The output gate. -/
def ogate (r : Fin 32768) (o : Fin 512) : EReal := Ideal.logistic (lin a.x a.Wox a.box r o + lin a.hs a.Woh a.boh r o)
/-- The update. -/
def ugate (r : Fin 32768) (o : Fin 512) : EReal := Ideal.tanh (lin a.x a.Wux a.bux r o + lin a.hs a.Wuh a.buh r o)
/-- Child `k`'s forget gate: its own hidden row through `W_fh`, plus the node's input through `W_fx`. -/
def fgate (k : Fin 4) (r : Fin 32768) (o : Fin 512) : EReal :=
  Ideal.logistic (linChild a.ch a.Wfh a.bfh k r o + lin a.x a.Wfx a.bfx r o)
/-- Child `k`'s contribution to the memory. -/
def fterm (k : Fin 4) (r : Fin 32768) (o : Fin 512) : EReal := fgate a k r o * a.cc (ix3 k r o)
/-- The new memory. -/
def cell (r : Fin 32768) (o : Fin 512) : EReal := igate a r o * ugate a r o + ∑ k : Fin 4, fterm a k r o
/-- The new hidden state. -/
def hid (r : Fin 32768) (o : Fin 512) : EReal := ogate a r o * Ideal.tanh (cell a r o)

/-- The memory as a [32768, 512] array. -/
def cellArr : FVec Ideal ⟨2, ![32768, 512]⟩ .f32 := fun i => cell a (i 0) (i 1)
/-- The hidden state as a [32768, 512] array. -/
def hidArr : FVec Ideal ⟨2, ![32768, 512]⟩ .f32 := fun i => hid a (i 0) (i 1)

theorem cellArr_ix2 (r : Fin 32768) (o : Fin 512) : cellArr a (ix2 r o) = cell a r o := rfl
theorem hidArr_ix2 (r : Fin 32768) (o : Fin 512) : hidArr a (ix2 r o) = hid a r o := rfl

/-- The children's terms folded one by one onto a start value are the start value plus their sum. -/
theorem fold4 (s : EReal) (t : Fin 4 → EReal) : (((s + t 0) + t 1) + t 2) + t 3 = s + ∑ k : Fin 4, t k := by
  rw [Fin.sum_univ_four]; simp only [add_assoc]

/-- Summing the children's terms from zero first changes nothing. -/
theorem sumFromZero (s : EReal) (t : Fin 4 → EReal) : s + (0 + ∑ k : Fin 4, t k) = s + ∑ k : Fin 4, t k := by
  rw [zero_add]

end Cert.TreeLstm

end
-- ==== Proof.BodyValue.lean ====
/-
  The two blocks one grid point stores, read at an entry, over the extended reals.

  Every intermediate value of the body is a composite of four kinds of step: a whole-block read, a read of one slab of a
  stack of four matrices seen as a matrix, a read of one row of a stack of four bias rows spread over all 512 rows, and
  a matrix product into a zero accumulator; everything else acts entry by entry. Read at entry (p, q):
  * the product of A and B is  Σ_j A[p, j] · B[j, q];
  * slab g of a stack W, as a matrix, at (j, q) is  W[g, j, q];
  * row g of a stack b, spread over the rows, at (p, q) is  b[g, q];
  * the narrowing of a value to the shorter format is the value itself.
  With these the gates are  σ(Σ_j x[p, j] · W[g, j, q] + b[g, q] + …), and the memory block is the product of input gate
  and update with the four children's terms added one after the other, which is the cell's sum over the children.
-/
import proofs.«170643_j27986006900855_1_alg».proof.Proof.BodyTermIdeal
import proofs.«170643_j27986006900855_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Pipeline.FrameBody

noncomputable section

namespace Cert.KernelIdeal.BodyValue

open Idealize.ShloMosaic Idealize.ShloMosaic.TcCoe Idealize.SL.Sem Cert.KernelIdeal Cert.KernelIdeal.Gen Cert.KernelIdeal.Body
  Idealize.ShloMosaic.ValueIdx

/-! ## Reads through the literal rectangles -/

/-- A whole-block read is the block. -/
theorem ld_all {α : Type} (X : S512x512.Idx → α) (off : Fin 2 → Nat) (inb : ∀ a, off a + S512x512.size a ≤ S512x512.size a)
    (h0 : off 0 = 0) (h1 : off 1 = 0) (p j : Fin 512) :
    (fun x => X ((Rect.unit (s := S512x512) off S512x512.size inb).idx x)) (ix2 p j) = X (ix2 p j) := by
  show X _ = X _
  refine congrArg X (funext fun a => Fin.ext ?_)
  match a with
  | ⟨0, _⟩ => show off 0 + 1 * p.val = p.val; rw [h0, Nat.zero_add, Nat.one_mul]
  | ⟨1, _⟩ => show off 1 + 1 * j.val = j.val; rw [h1, Nat.zero_add, Nat.one_mul]

/-- Slab g of a stack of four matrices, read at (0, j, q), is the stack at (g, j, q). -/
theorem ld_mat {α : Type} (X : S4x512x512.Idx → α) (off : Fin 3 → Nat)
    (inb : ∀ a, off a + S1x512x512.size a ≤ S4x512x512.size a) (g : Fin 4)
    (h0 : off 0 = g.val) (h1 : off 1 = 0) (h2 : off 2 = 0) (u : Fin 1) (j q : Fin 512) :
    (fun x => X ((Rect.unit (s := S4x512x512) off S1x512x512.size inb).idx x)) (ix3 u j q) = X (ix3 g j q) := by
  show X _ = X _
  refine congrArg X (funext fun a => Fin.ext ?_)
  have hu : u.val = 0 := by omega
  match a with
  | ⟨0, _⟩ => show off 0 + 1 * u.val = g.val; rw [h0, hu, Nat.mul_zero, Nat.add_zero]
  | ⟨1, _⟩ => show off 1 + 1 * j.val = j.val; rw [h1, Nat.zero_add, Nat.one_mul]
  | ⟨2, _⟩ => show off 2 + 1 * q.val = q.val; rw [h2, Nat.zero_add, Nat.one_mul]

/-- Row g of a stack of four rows, read at (0, q), is the stack at (g, q). -/
theorem ld_row {α : Type} (X : S4x512.Idx → α) (off : Fin 2 → Nat)
    (inb : ∀ a, off a + S1x512.size a ≤ S4x512.size a) (g : Fin 4)
    (h0 : off 0 = g.val) (h1 : off 1 = 0) (u : Fin 1) (q : Fin 512) :
    (fun x => X ((Rect.unit (s := S4x512) off S1x512.size inb).idx x)) (ix2 u q) = X (ix2 g q) := by
  show X _ = X _
  refine congrArg X (funext fun a => Fin.ext ?_)
  have hu : u.val = 0 := by omega
  match a with
  | ⟨0, _⟩ => show off 0 + 1 * u.val = g.val; rw [h0, hu, Nat.mul_zero, Nat.add_zero]
  | ⟨1, _⟩ => show off 1 + 1 * q.val = q.val; rw [h1, Nat.zero_add, Nat.one_mul]

/-! ## The layout steps and the matrix product at an entry -/

/-- Slab g of a stack, seen as a matrix, at (j, q). -/
theorem slab_apply {Val : EltTy → Type} {e : EltTy} (X : S4x512x512.Idx → Val e) (off : Fin 3 → Nat)
    (inb : ∀ a, off a + S1x512x512.size a ≤ S4x512x512.size a) (g : Fin 4)
    (h0 : off 0 = g.val) (h1 : off 1 = 0) (h2 : off 2 = 0) (j q : Fin 512) :
    shapeCast S512x512 (View.ld X (Rect.unit (s := S4x512x512) off S1x512x512.size inb)) shapeCasts_S1x512x512_S512x512 (ix2 j q)
      = X (ix3 g j q) :=
  (shapeCast_1ab_ab_apply _ _ j q).trans (ld_mat X off inb g h0 h1 h2 0 j q)

/-- Row g of a stack of rows, flattened, made a row again and spread over the 512 rows, at (p, q). -/
theorem bias_apply {Val : EltTy → Type} {e : EltTy} (b : S4x512.Idx → Val e) (off : Fin 2 → Nat)
    (inb : ∀ a, off a + S1x512.size a ≤ S4x512.size a) (g : Fin 4) (h0 : off 0 = g.val) (h1 : off 1 = 0) (p q : Fin 512) :
    broadcastTo S512x512 (shapeCast S1x512 (shapeCast S512 (View.ld b (Rect.unit (s := S4x512) off S1x512.size inb))
      shapeCasts_S1x512_S512) shapeCasts_S512_S1x512) broadcasts_S1x512_S512x512 (ix2 p q) = b (ix2 g q) :=
  (broadcastTo_1b_ab_apply _ _ p q).trans ((shapeCast_a_1a_apply _ _ 0 q).trans
    ((shapeCast_1a_a_apply _ _ q).trans (ld_row b off inb g h0 h1 0 q)))

/-- The left operand of the product is read along row p … -/
theorem mm_lhs_0 (i : S512x512.Idx) (k : dot_S512x512_S512x512_S512x512_1_0_0_1_n_n.contr.Idx) :
    (dot_S512x512_S512x512_S512x512_1_0_0_1_n_n.lhsIdx i k 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
/-- … at the contracted position, … -/
theorem mm_lhs_1 (i : S512x512.Idx) (k : dot_S512x512_S512x512_S512x512_1_0_0_1_n_n.contr.Idx) :
    (dot_S512x512_S512x512_S512x512_1_0_0_1_n_n.lhsIdx i k 1).val = (k ⟨0, by decide⟩).val :=
  dot_S512x512_S512x512_S512x512_1_0_0_1_n_n.lhsIdx_val_of_single rfl i k
/-- … the right operand at the contracted position … -/
theorem mm_rhs_0 (i : S512x512.Idx) (k : dot_S512x512_S512x512_S512x512_1_0_0_1_n_n.contr.Idx) :
    (dot_S512x512_S512x512_S512x512_1_0_0_1_n_n.rhsIdx i k 0).val = (k ⟨0, by decide⟩).val :=
  dot_S512x512_S512x512_S512x512_1_0_0_1_n_n.rhsIdx_val_of_single rfl i k
/-- … down column q. -/
theorem mm_rhs_1 (i : S512x512.Idx) (k : dot_S512x512_S512x512_S512x512_1_0_0_1_n_n.contr.Idx) :
    (dot_S512x512_S512x512_S512x512_1_0_0_1_n_n.rhsIdx i k 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The product of two 512 × 512 matrices into the zero accumulator, at (p, q): the sum over the shared axis. -/
theorem mm_apply {φ₁ φ₂ : FTy} (A : FVec Ideal S512x512 φ₁) (B : FVec Ideal S512x512 φ₂) (p q : Fin 512) :
    matmul dot_S512x512_S512x512_S512x512_1_0_0_1_n_n none A B (constant (F := Ideal) S512x512 .f32 0x00000000#32) (ix2 p q)
      = ∑ j : Fin 512, A (ix2 p j) * B (ix2 j q) := by
  show FloatOps.matmul dot_S512x512_S512x512_S512x512_1_0_0_1_n_n none A B (constant (F := Ideal) S512x512 .f32 0x00000000#32) (ix2 p q) = _
  rw [Ideal.matmul_constant_zero_apply,
    ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q)
      ((contrEquiv1 dot_S512x512_S512x512_S512x512_1_0_0_1_n_n 512 rfl rfl).symm k) = ix2 p k :=
    funext fun a => Fin.ext (by
      match a with
      | ⟨0, _⟩ => exact mm_lhs_0 _ _
      | ⟨1, _⟩ => exact (mm_lhs_1 _ _).trans hk)
  have er : dot_S512x512_S512x512_S512x512_1_0_0_1_n_n.rhsIdx (ix2 p q)
      ((contrEquiv1 dot_S512x512_S512x512_S512x512_1_0_0_1_n_n 512 rfl rfl).symm k) = ix2 k q :=
    funext fun a => Fin.ext (by
      match a with
      | ⟨0, _⟩ => exact (mm_rhs_0 _ _).trans hk
      | ⟨1, _⟩ => exact mm_rhs_1 _ _)
  rw [el, er]

/-- The product against slab g of a stack, at (p, q), with the left operand's row named. -/
theorem mmW_apply {φ₁ : FTy} (A : FVec Ideal S512x512 φ₁) (W : Vec Ideal S4x512x512 .bf16) (off : Fin 3 → Nat)
    (inb : ∀ a, off a + S1x512x512.size a ≤ S4x512x512.size a) (g : Fin 4)
    (h0 : off 0 = g.val) (h1 : off 1 = 0) (h2 : off 2 = 0) (p q : Fin 512) (a : Fin 512 → EReal)
    (hA : ∀ j, A (ix2 p j) = a j) :
    matmul dot_S512x512_S512x512_S512x512_1_0_0_1_n_n none A
        (shapeCast S512x512 (View.ld W (Rect.unit (s := S4x512x512) off S1x512x512.size inb)) shapeCasts_S1x512x512_S512x512 :
          FVec Ideal S512x512 .bf16)
        (constant (F := Ideal) S512x512 .f32 0x00000000#32) (ix2 p q)
      = ∑ j : Fin 512, a j * W (ix3 g j q) :=
  (mm_apply A _ p q).trans (Finset.sum_congr rfl fun j _ =>
    congrArg₂ (· * ·) (hA j) (slab_apply W off inb g h0 h1 h2 j q))

/-! ## The body's values at an entry, in terms of the blocks -/

section Blocks

variable (x0 x1 : Vec Ideal S512x512 .f32) (x2 x3 : Vec Ideal S4x512x512 .f32) (x4 : Vec Ideal S4x512x512 .bf16)
  (x5 : Vec Ideal S4x512 .f32) (x6 : Vec Ideal S4x512x512 .bf16) (x7 : Vec Ideal S4x512 .f32)

/-- Layer g of the input side at (p, q): the node's row p against column q of slab g, plus the bias. -/
def linX (g : Fin 4) (p q : Fin 512) : EReal := (∑ j : Fin 512, x0 (ix2 p j) * x4 (ix3 g j q)) + x5 (ix2 g q)
/-- Layer g of the state side on the summed child states. -/
def linH (g : Fin 4) (p q : Fin 512) : EReal := (∑ j : Fin 512, x1 (ix2 p j) * x6 (ix3 g j q)) + x7 (ix2 g q)
/-- The forget layer of the state side on child k's hidden row. -/
def linC (k : Fin 4) (p q : Fin 512) : EReal := (∑ j : Fin 512, x3 (ix3 k p j) * x6 (ix3 1 j q)) + x7 (ix2 1 q)
/-- Child k's forget gate. -/
def forgetK (k : Fin 4) (p q : Fin 512) : EReal := Ideal.logistic (linC x3 x6 x7 k p q + linX x0 x4 x5 1 p q)

theorem xin_apply (p j : Fin 512) : xin (F := Ideal) x0 (ix2 p j) = x0 (ix2 p j) :=
  ld_all x0 _ _ rfl rfl p j
theorem hsum_apply (p j : Fin 512) : hsum (F := Ideal) x1 (ix2 p j) = x1 (ix2 p j) :=
  ld_all x1 _ _ rfl rfl p j

theorem gateI_apply (p q : Fin 512) :
    gateI (F := Ideal) x0 x1 x4 x5 x6 x7 (ix2 p q) = Ideal.logistic (linX x0 x4 x5 0 p q + linH x1 x6 x7 0 p q) := by
  unfold gateI k0_pay5 linX linH
  refine congrArg Ideal.logistic (congrArg₂ (· + ·) (congrArg₂ (· + ·) ?_ ?_) (congrArg₂ (· + ·) ?_ ?_))
  · exact mmW_apply _ x4 _ _ 0 rfl rfl rfl p q _ (ld_all x0 _ _ rfl rfl p)
  · exact bias_apply x5 _ _ 0 rfl rfl p q
  · exact mmW_apply _ x6 _ _ 0 rfl rfl rfl p q _ (ld_all x1 _ _ rfl rfl p)
  · exact bias_apply x7 _ _ 0 rfl rfl p q

theorem updX_apply (p q : Fin 512) : updX (F := Ideal) x0 x4 x5 (ix2 p q) = linX x0 x4 x5 2 p q := by
  unfold updX k0_pay6 linX
  refine congrArg₂ (· + ·) ?_ ?_
  · exact mmW_apply _ x4 _ _ 2 rfl rfl rfl p q _ (ld_all x0 _ _ rfl rfl p)
  · exact bias_apply x5 _ _ 2 rfl rfl p q

theorem updH_apply (p q : Fin 512) :
    updH (F := Ideal) x1 x6 (ix2 p q) = ∑ j : Fin 512, x1 (ix2 p j) * x6 (ix3 2 j q) := by
  unfold updH k0_pay7
  exact mmW_apply _ x6 _ _ 2 rfl rfl rfl p q _ (ld_all x1 _ _ rfl rfl p)

theorem gateO_apply (p q : Fin 512) :
    gateO (F := Ideal) x0 x1 x4 x5 x6 x7 (ix2 p q) = Ideal.logistic (linX x0 x4 x5 3 p q + linH x1 x6 x7 3 p q) := by
  unfold gateO k0_pay8 linX linH
  refine congrArg Ideal.logistic (congrArg₂ (· + ·) (congrArg₂ (· + ·) ?_ ?_) (congrArg₂ (· + ·) ?_ ?_))
  · exact mmW_apply _ x4 _ _ 3 rfl rfl rfl p q _ (xin_apply x0 p)
  · exact bias_apply x5 _ _ 3 rfl rfl p q
  · exact mmW_apply _ x6 _ _ 3 rfl rfl rfl p q _ (hsum_apply x1 p)
  · exact bias_apply x7 _ _ 3 rfl rfl p q

theorem forgetX_apply (p q : Fin 512) : forgetX (F := Ideal) x0 x4 x5 (ix2 p q) = linX x0 x4 x5 1 p q := by
  unfold forgetX k0_pay9 linX
  refine congrArg₂ (· + ·) ?_ ?_
  · exact mmW_apply _ x4 _ _ 1 rfl rfl rfl p q _ (xin_apply x0 p)
  · exact bias_apply x5 _ _ 1 rfl rfl p q

theorem gateIU_apply (p q : Fin 512) :
    gateIU (F := Ideal) x0 x1 x4 x5 x6 x7 (ix2 p q)
      = Ideal.logistic (linX x0 x4 x5 0 p q + linH x1 x6 x7 0 p q) * Ideal.tanh (linX x0 x4 x5 2 p q + linH x1 x6 x7 2 p q) := by
  unfold gateIU k0_pay10
  refine congrArg₂ (· * ·) (gateI_apply x0 x1 x4 x5 x6 x7 p q) (congrArg Ideal.tanh (congrArg₂ (· + ·) ?_ (congrArg₂ (· + ·) ?_ ?_)))
  · exact updX_apply x0 x4 x5 p q
  · exact updH_apply x1 x6 p q
  · exact bias_apply x7 _ _ 2 rfl rfl p q

end Blocks

/-! ## The forget gates, the memory and the hidden state at an entry, in terms of the blocks -/

section Blocks2

variable (x0 x1 : Vec Ideal S512x512 .f32) (x2 x3 : Vec Ideal S4x512x512 .f32) (x4 : Vec Ideal S4x512x512 .bf16)
  (x5 : Vec Ideal S4x512 .f32) (x6 : Vec Ideal S4x512x512 .bf16) (x7 : Vec Ideal S4x512 .f32)

/-- One child's forget gate: its narrowed hidden rows L against the forget slab, plus the forget bias, plus the input
    half shared by the four children. -/
theorem forget_core (L : FVec Ideal S512x512 .bf16) (k : Fin 4) (p q : Fin 512) (hL : ∀ j, L (ix2 p j) = x3 (ix3 k p j)) :
    Ideal.logistic ((matmul dot_S512x512_S512x512_S512x512_1_0_0_1_n_n none L (forgetW (F := Ideal) x6)
          (constant (F := Ideal) S512x512 .f32 0x00000000#32) (ix2 p q)
        + broadcastTo S512x512 (shapeCast S1x512 (forgetB (F := Ideal) x7) shapeCasts_S512_S1x512) broadcasts_S1x512_S512x512 (ix2 p q))
        + forgetX (F := Ideal) x0 x4 x5 (ix2 p q))
      = forgetK x0 x3 x4 x5 x6 x7 k p q := by
  unfold forgetK linC
  refine congrArg Ideal.logistic (congrArg₂ (· + ·) (congrArg₂ (· + ·) ?_ ?_) (forgetX_apply x0 x4 x5 p q))
  · exact mmW_apply L x6 _ _ 1 rfl rfl rfl p q _ hL
  · exact bias_apply x7 _ _ 1 rfl rfl p q

/-- Child k's hidden rows, as the matrix unit reads them, at (p, j). -/
theorem child_apply (off : Fin 3 → Nat) (inb : ∀ a, off a + S1x512x512.size a ≤ S4x512x512.size a) (k : Fin 4)
    (h0 : off 0 = k.val) (h1 : off 1 = 0) (h2 : off 2 = 0) (p j : Fin 512) :
    (truncf .bf16 (shapeCast S512x512 (View.ld x3 (Rect.unit (s := S4x512x512) off S1x512x512.size inb)) shapeCasts_S1x512x512_S512x512 :
        FVec Ideal S512x512 .f32) bitsLt_bf16_f32 : FVec Ideal S512x512 .bf16) (ix2 p j) = x3 (ix3 k p j) :=
  slab_apply x3 off inb k h0 h1 h2 p j

theorem forget2_apply (p q : Fin 512) :
    forget2 (F := Ideal) x0 x3 x4 x5 x6 x7 (ix2 p q) = forgetK x0 x3 x4 x5 x6 x7 2 p q := by
  unfold forget2 k0_pay14
  exact forget_core x0 x3 x4 x5 x6 x7 _ 2 p q (child_apply x3 _ _ 2 rfl rfl rfl p)

theorem acc01_apply (p q : Fin 512) :
    acc01 (F := Ideal) x0 x1 x2 x3 x4 x5 x6 x7 (ix2 p q)
      = (Ideal.logistic (linX x0 x4 x5 0 p q + linH x1 x6 x7 0 p q) * Ideal.tanh (linX x0 x4 x5 2 p q + linH x1 x6 x7 2 p q)
          + forgetK x0 x3 x4 x5 x6 x7 0 p q * x2 (ix3 0 p q))
        + forgetK x0 x3 x4 x5 x6 x7 1 p q * x2 (ix3 1 p q) := by
  unfold acc01 k0_pay13
  refine congrArg₂ (· + ·) (congrArg₂ (· + ·) (gateIU_apply x0 x1 x4 x5 x6 x7 p q)
    (congrArg₂ (· * ·) ?_ (slab_apply x2 _ _ 0 rfl rfl rfl p q))) (congrArg₂ (· * ·) ?_ (slab_apply x2 _ _ 1 rfl rfl rfl p q))
  · exact forget_core x0 x3 x4 x5 x6 x7 _ 0 p q (child_apply x3 _ _ 0 rfl rfl rfl p)
  · exact forget_core x0 x3 x4 x5 x6 x7 _ 1 p q (child_apply x3 _ _ 1 rfl rfl rfl p)

/-- The memory block at (p, q): input gate times update, with the four children's terms added one after the other. -/
theorem cellBlk_apply (p q : Fin 512) :
    cellBlk (F := Ideal) x0 x1 x2 x3 x4 x5 x6 x7 (ix2 p q)
      = (((Ideal.logistic (linX x0 x4 x5 0 p q + linH x1 x6 x7 0 p q) * Ideal.tanh (linX x0 x4 x5 2 p q + linH x1 x6 x7 2 p q)
          + forgetK x0 x3 x4 x5 x6 x7 0 p q * x2 (ix3 0 p q))
        + forgetK x0 x3 x4 x5 x6 x7 1 p q * x2 (ix3 1 p q))
        + forgetK x0 x3 x4 x5 x6 x7 2 p q * x2 (ix3 2 p q))
        + forgetK x0 x3 x4 x5 x6 x7 3 p q * x2 (ix3 3 p q) := by
  unfold cellBlk k0_pay1
  refine congrArg₂ (· + ·) (congrArg₂ (· + ·) (acc01_apply x0 x1 x2 x3 x4 x5 x6 x7 p q)
    (congrArg₂ (· * ·) (forget2_apply x0 x3 x4 x5 x6 x7 p q) (slab_apply x2 _ _ 2 rfl rfl rfl p q)))
    (congrArg₂ (· * ·) ?_ (slab_apply x2 _ _ 3 rfl rfl rfl p q))
  exact forget_core x0 x3 x4 x5 x6 x7 _ 3 p q (child_apply x3 _ _ 3 rfl rfl rfl p)

/-- The hidden block at (p, q): the output gate times the tanh of the memory. -/
theorem hidBlk_apply (p q : Fin 512) :
    hidBlk (F := Ideal) x0 x1 x2 x3 x4 x5 x6 x7 (ix2 p q)
      = Ideal.logistic (linX x0 x4 x5 3 p q + linH x1 x6 x7 3 p q)
        * Ideal.tanh (cellBlk (F := Ideal) x0 x1 x2 x3 x4 x5 x6 x7 (ix2 p q)) := by
  unfold hidBlk k0_pay2
  exact congrArg₂ (· * ·) (gateO_apply x0 x1 x4 x5 x6 x7 p q) rfl

end Blocks2

/-! ## From the blocks to the arrays -/

section Arrays

variable (a : Cert.TreeLstm.Args) (r : Fin 32768) (p q : Fin 512)
  (x0 x1 : Vec Ideal S512x512 .f32) (x2 x3 : Vec Ideal S4x512x512 .f32) (x4 : Vec Ideal S4x512x512 .bf16)
  (x5 : Vec Ideal S4x512 .f32) (x6 : Vec Ideal S4x512x512 .bf16) (x7 : Vec Ideal S4x512 .f32)

/-- A layer on a [32768, 512] array's row r, read off blocks that hold that row, the layer's matrix transposed and its bias. -/
theorem linX_of (X : FVec Ideal ⟨2, ![32768, 512]⟩ .f32) (W : FVec Ideal ⟨2, ![512, 512]⟩ .f32) (b : FVec Ideal ⟨1, ![512]⟩ .f32)
    (xb : Vec Ideal S512x512 .f32) (wb : Vec Ideal S4x512x512 .bf16) (bb : Vec Ideal S4x512 .f32) (g : Fin 4)
    (hx : ∀ j : Fin 512, xb (ix2 p j) = X (ix2 r j)) (hW : ∀ j : Fin 512, wb (ix3 g j q) = W (ix2 q j))
    (hb : bb (ix2 g q) = b (ix1 q)) :
    linX xb wb bb g p q = Cert.TreeLstm.lin X W b r q := by
  unfold linX Cert.TreeLstm.lin
  exact congrArg₂ (· + ·) (Finset.sum_congr rfl fun j _ => congrArg₂ (· * ·) (hx j) (hW j)) hb

theorem linH_of (X : FVec Ideal ⟨2, ![32768, 512]⟩ .f32) (W : FVec Ideal ⟨2, ![512, 512]⟩ .f32) (b : FVec Ideal ⟨1, ![512]⟩ .f32)
    (xb : Vec Ideal S512x512 .f32) (wb : Vec Ideal S4x512x512 .bf16) (bb : Vec Ideal S4x512 .f32) (g : Fin 4)
    (hx : ∀ j : Fin 512, xb (ix2 p j) = X (ix2 r j)) (hW : ∀ j : Fin 512, wb (ix3 g j q) = W (ix2 q j))
    (hb : bb (ix2 g q) = b (ix1 q)) :
    linH xb wb bb g p q = Cert.TreeLstm.lin X W b r q := by
  unfold linH Cert.TreeLstm.lin
  exact congrArg₂ (· + ·) (Finset.sum_congr rfl fun j _ => congrArg₂ (· * ·) (hx j) (hW j)) hb

theorem linC_of (k : Fin 4) (h3 : ∀ j : Fin 512, x3 (ix3 k p j) = a.ch (ix3 k r j))
    (hW : ∀ j : Fin 512, x6 (ix3 (1 : Fin 4) j q) = a.Wfh (ix2 q j)) (hb : x7 (ix2 (1 : Fin 4) q) = a.bfh (ix1 q)) :
    linC x3 x6 x7 k p q = Cert.TreeLstm.linChild a.ch a.Wfh a.bfh k r q := by
  unfold linC Cert.TreeLstm.linChild
  exact congrArg₂ (· + ·) (Finset.sum_congr rfl fun j _ => congrArg₂ (· * ·) (h3 j) (hW j)) hb

variable
  (h0 : ∀ j : Fin 512, x0 (ix2 p j) = a.x (ix2 r j)) (h1 : ∀ j : Fin 512, x1 (ix2 p j) = a.hs (ix2 r j))
  (h2 : ∀ k : Fin 4, x2 (ix3 k p q) = a.cc (ix3 k r q)) (h3 : ∀ (k : Fin 4) (j : Fin 512), x3 (ix3 k p j) = a.ch (ix3 k r j))
  (h4 : ∀ j : Fin 512, x4 (ix3 (0 : Fin 4) j q) = a.Wix (ix2 q j) ∧ x4 (ix3 (1 : Fin 4) j q) = a.Wfx (ix2 q j)
    ∧ x4 (ix3 (2 : Fin 4) j q) = a.Wux (ix2 q j) ∧ x4 (ix3 (3 : Fin 4) j q) = a.Wox (ix2 q j))
  (h5 : x5 (ix2 (0 : Fin 4) q) = a.bix (ix1 q) ∧ x5 (ix2 (1 : Fin 4) q) = a.bfx (ix1 q)
    ∧ x5 (ix2 (2 : Fin 4) q) = a.bux (ix1 q) ∧ x5 (ix2 (3 : Fin 4) q) = a.box (ix1 q))
  (h6 : ∀ j : Fin 512, x6 (ix3 (0 : Fin 4) j q) = a.Wih (ix2 q j) ∧ x6 (ix3 (1 : Fin 4) j q) = a.Wfh (ix2 q j)
    ∧ x6 (ix3 (2 : Fin 4) j q) = a.Wuh (ix2 q j) ∧ x6 (ix3 (3 : Fin 4) j q) = a.Woh (ix2 q j))
  (h7 : x7 (ix2 (0 : Fin 4) q) = a.bih (ix1 q) ∧ x7 (ix2 (1 : Fin 4) q) = a.bfh (ix1 q)
    ∧ x7 (ix2 (2 : Fin 4) q) = a.buh (ix1 q) ∧ x7 (ix2 (3 : Fin 4) q) = a.boh (ix1 q))

include h0 h1 h4 h5 h6 h7 in
/-- The input gate. -/
theorem igate_of : Ideal.logistic (linX x0 x4 x5 0 p q + linH x1 x6 x7 0 p q) = Cert.TreeLstm.igate a r q :=
  congrArg Ideal.logistic (congrArg₂ (· + ·)
    (linX_of r p q a.x a.Wix a.bix x0 x4 x5 0 h0 (fun j => (h4 j).1) h5.1)
    (linH_of r p q a.hs a.Wih a.bih x1 x6 x7 0 h1 (fun j => (h6 j).1) h7.1))

include h0 h1 h4 h5 h6 h7 in
/-- The update. -/
theorem ugate_of : Ideal.tanh (linX x0 x4 x5 2 p q + linH x1 x6 x7 2 p q) = Cert.TreeLstm.ugate a r q :=
  congrArg Ideal.tanh (congrArg₂ (· + ·)
    (linX_of r p q a.x a.Wux a.bux x0 x4 x5 2 h0 (fun j => (h4 j).2.2.1) h5.2.2.1)
    (linH_of r p q a.hs a.Wuh a.buh x1 x6 x7 2 h1 (fun j => (h6 j).2.2.1) h7.2.2.1))

include h0 h1 h4 h5 h6 h7 in
/-- The output gate. -/
theorem ogate_of : Ideal.logistic (linX x0 x4 x5 3 p q + linH x1 x6 x7 3 p q) = Cert.TreeLstm.ogate a r q :=
  congrArg Ideal.logistic (congrArg₂ (· + ·)
    (linX_of r p q a.x a.Wox a.box x0 x4 x5 3 h0 (fun j => (h4 j).2.2.2) h5.2.2.2)
    (linH_of r p q a.hs a.Woh a.boh x1 x6 x7 3 h1 (fun j => (h6 j).2.2.2) h7.2.2.2))

include h0 h2 h3 h4 h5 h6 h7 in
/-- Child k's term of the memory. -/
theorem fterm_of (k : Fin 4) : forgetK x0 x3 x4 x5 x6 x7 k p q * x2 (ix3 k p q) = Cert.TreeLstm.fterm a k r q :=
  congrArg₂ (· * ·)
    (congrArg Ideal.logistic (congrArg₂ (· + ·)
      (linC_of a r p q x3 x6 x7 k (h3 k) (fun j => (h6 j).2.1) h7.2.1)
      (linX_of r p q a.x a.Wfx a.bfx x0 x4 x5 1 h0 (fun j => (h4 j).2.1) h5.2.1)))
    (h2 k)

include h0 h1 h2 h3 h4 h5 h6 h7 in
/-- The memory block's entry (p, q) is the cell's new memory at row r, column q. -/
theorem cellBlk_eq : cellBlk (F := Ideal) x0 x1 x2 x3 x4 x5 x6 x7 (ix2 p q) = Cert.TreeLstm.cell a r q :=
  (cellBlk_apply x0 x1 x2 x3 x4 x5 x6 x7 p q).trans
    ((congrArg₂ (· + ·) (congrArg₂ (· + ·) (congrArg₂ (· + ·) (congrArg₂ (· + ·)
        (congrArg₂ (· * ·) (igate_of a r p q x0 x1 x4 x5 x6 x7 h0 h1 h4 h5 h6 h7) (ugate_of a r p q x0 x1 x4 x5 x6 x7 h0 h1 h4 h5 h6 h7))
        (fterm_of a r p q x0 x2 x3 x4 x5 x6 x7 h0 h2 h3 h4 h5 h6 h7 0))
        (fterm_of a r p q x0 x2 x3 x4 x5 x6 x7 h0 h2 h3 h4 h5 h6 h7 1))
        (fterm_of a r p q x0 x2 x3 x4 x5 x6 x7 h0 h2 h3 h4 h5 h6 h7 2))
        (fterm_of a r p q x0 x2 x3 x4 x5 x6 x7 h0 h2 h3 h4 h5 h6 h7 3)).trans
      (Cert.TreeLstm.fold4 (Cert.TreeLstm.igate a r q * Cert.TreeLstm.ugate a r q) (fun k => Cert.TreeLstm.fterm a k r q)))

include h0 h1 h2 h3 h4 h5 h6 h7 in
/-- The hidden block's entry (p, q) is the cell's new hidden state at row r, column q. -/
theorem hidBlk_eq : hidBlk (F := Ideal) x0 x1 x2 x3 x4 x5 x6 x7 (ix2 p q) = Cert.TreeLstm.hid a r q :=
  (hidBlk_apply x0 x1 x2 x3 x4 x5 x6 x7 p q).trans
    (congrArg₂ (· * ·) (ogate_of a r p q x0 x1 x4 x5 x6 x7 h0 h1 h4 h5 h6 h7)
      (congrArg Ideal.tanh (cellBlk_eq a r p q x0 x1 x2 x3 x4 x5 x6 x7 h0 h1 h2 h3 h4 h5 h6 h7)))

end Arrays

end Cert.KernelIdeal.BodyValue

end
-- ==== Proof.KernelValue.lean ====
/-
  The idealized kernel's two result arrays are the specification's.

  Grid point `t` handles rows `512 t … 512 t + 511`: its blocks of the node inputs, of the summed child states and of
  the children's memories and hidden rows are those rows of the argument arrays (none of which the host prefix writes),
  and the four weight and bias stacks are whole host-built arrays whose slab `g` at `(j, q)` is matrix `g` at `(q, j)`.
  So the block the body stores is, entry by entry, the specification's cell (resp. hidden state) at the array's row; the
  64 block rows tile each [32768, 512] result, hence after the run each result is the specification of the arguments.
-/
import proofs.«170643_j27986006900855_1_alg».proof.Proof.FrameIdeal
import proofs.«170643_j27986006900855_1_alg».proof.Proof.HostArrays
import proofs.«170643_j27986006900855_1_alg».proof.Proof.BodyValue
import proofs.«170643_j27986006900855_1_alg».proof.Proof.Spec
import Idealize.ShloMosaic.Lib.ValueIdx
import Idealize.ShloMosaic.Lib.Pipeline.Value

set_option maxRecDepth 16384

noncomputable section

namespace Cert.KernelIdeal.KValue

open Idealize.ShloMosaic Idealize.ShloMosaic.TcCoe Idealize.SL.Sem
open Idealize.ShloMosaic.Pipeline (Dat Cfg Window)
open Cert.KernelIdeal Cert.KernelIdeal.Gen Cert.KernelIdeal.Body Cert.KernelIdeal.Fr Idealize.ShloMosaic.ValueIdx

variable (m : (ℓ : Loc nD τ sig) → Buf (Elt Ideal) ℓ) (ρ : Dev nD → PrngReg)

/-- Core `c`'s twenty argument arrays as launched. -/
def args (c : Dev nD) : Cert.TreeLstm.Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19)⟩

theorem hz2 : (![0, 0] : Fin 2 → Nat) = fun _ => 0 := funext fun a => by fin_cases a <;> rfl

/-- The printed index maps over the grid: the row-tiled windows sit at block row `t`, the stacked children's at block
    `(0, t, 0)`, and the weight and bias stacks are one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

theorem t_lt (t : Fin cfg0.N) : t.val < 64 := t.isLt

/-- Row `p` of block row `t` is row `512 t + p` of the array. -/
def rowOf (t : Fin cfg0.N) (p : Fin 512) : Fin 32768 := ⟨t.val * 512 + p.val, by have := t_lt t; have := p.isLt; omega⟩

/-! ## The input blocks read at an entry -/

/-- Block row `t` of the node inputs, at (p, j), is the array at row `512 t + p`. -/
theorem blk0_apply (c : Dev nD) (t : Fin cfg0.N) (p j : Fin 512) :
    (iblk m c 0 t : S512x512.Idx → EReal) (ix2 p j) = (args m c).x (ix2 (rowOf t p) j) := by
  obtain ⟨⟨e0, e1⟩, -⟩ := idx_facts t
  unfold iblk
  show V m c main_arg0 (((cfg0.win 0).blk t).view.emb (ix2 p j)) = _
  rw [V_main_arg0]
  show m ((c.tc : Thread nD τ).loc main_arg0) _ = m ((c.tc : Thread nD τ).loc main_arg0) _
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 512 + 1 * j.val = j.val; omega

/-- The same for the summed child states. -/
theorem blk1_apply (c : Dev nD) (t : Fin cfg0.N) (p j : Fin 512) :
    (iblk m c 1 t : S512x512.Idx → EReal) (ix2 p j) = (args m c).hs (ix2 (rowOf t p) j) := by
  obtain ⟨-, ⟨e0, e1⟩, -⟩ := idx_facts t
  unfold iblk
  show V m c main_arg3 (((cfg0.win 1).blk t).view.emb (ix2 p j)) = _
  rw [V_main_arg3]
  show m ((c.tc : Thread nD τ).loc main_arg3) _ = m ((c.tc : Thread nD τ).loc main_arg3) _
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 512 + 1 * j.val = j.val; omega

/-- Block row `t` of the four children's memories, at (k, p, q). -/
theorem blk2_apply (c : Dev nD) (t : Fin cfg0.N) (k : Fin 4) (p q : Fin 512) :
    (iblk m c 2 t : S4x512x512.Idx → EReal) (ix3 k p q) = (args m c).cc (ix3 k (rowOf t p) q) := by
  obtain ⟨-, -, ⟨e0, e1, e2⟩, -⟩ := idx_facts t
  unfold iblk
  show V m c main_arg1 (((cfg0.win 2).blk t).view.emb (ix3 k p q)) = _
  rw [V_main_arg1]
  show m ((c.tc : Thread nD τ).loc main_arg1) _ = m ((c.tc : Thread nD τ).loc main_arg1) _
  refine congrArg _ (funext fun a => Fin.ext ?_)
  match a with
  | ⟨0, _⟩ => show win0_2.index t (0 : Fin 3) * 4 + 1 * k.val = k.val; omega
  | ⟨1, _⟩ => show win0_2.index t (1 : Fin 3) * 512 + 1 * p.val = t.val * 512 + p.val; omega
  | ⟨2, _⟩ => show win0_2.index t (2 : Fin 3) * 512 + 1 * q.val = q.val; omega

/-- The same for the children's hidden rows. -/
theorem blk3_apply (c : Dev nD) (t : Fin cfg0.N) (k : Fin 4) (p q : Fin 512) :
    (iblk m c 3 t : S4x512x512.Idx → EReal) (ix3 k p q) = (args m c).ch (ix3 k (rowOf t p) q) := by
  obtain ⟨-, -, -, ⟨e0, e1, e2⟩, -⟩ := idx_facts t
  unfold iblk
  show V m c main_arg2 (((cfg0.win 3).blk t).view.emb (ix3 k p q)) = _
  rw [V_main_arg2]
  show m ((c.tc : Thread nD τ).loc main_arg2) _ = m ((c.tc : Thread nD τ).loc main_arg2) _
  refine congrArg _ (funext fun a => Fin.ext ?_)
  match a with
  | ⟨0, _⟩ => show win0_3.index t (0 : Fin 3) * 4 + 1 * k.val = k.val; omega
  | ⟨1, _⟩ => show win0_3.index t (1 : Fin 3) * 512 + 1 * p.val = t.val * 512 + p.val; omega
  | ⟨2, _⟩ => show win0_3.index t (2 : Fin 3) * 512 + 1 * q.val = q.val; omega

/-- The weight and bias stacks are one block: the block is the whole host-built array. -/
theorem blk4_apply (c : Dev nD) (t : Fin cfg0.N) (g : Fin 4) (j q : Fin 512) :
    (iblk m c 4 t : S4x512x512.Idx → EReal) (ix3 g j q) = (V m c main_v9 : S4x512x512.Idx → EReal) (ix3 g j q) := by
  obtain ⟨-, -, -, -, ⟨e0, e1, e2⟩, -⟩ := idx_facts t
  unfold iblk
  show V m c main_v9 (((cfg0.win 4).blk t).view.emb (ix3 g j q)) = _
  refine congrArg _ (funext fun a => Fin.ext ?_)
  match a with
  | ⟨0, _⟩ => show win0_4.index t (0 : Fin 3) * 4 + 1 * g.val = g.val; omega
  | ⟨1, _⟩ => show win0_4.index t (1 : Fin 3) * 512 + 1 * j.val = j.val; omega
  | ⟨2, _⟩ => show win0_4.index t (2 : Fin 3) * 512 + 1 * q.val = q.val; omega

theorem blk5_apply (c : Dev nD) (t : Fin cfg0.N) (g : Fin 4) (q : Fin 512) :
    (iblk m c 5 t : S4x512.Idx → EReal) (ix2 g q) = (V m c main_v24 : S4x512.Idx → EReal) (ix2 g q) := by
  obtain ⟨-, -, -, -, -, ⟨e0, e1⟩, -⟩ := idx_facts t
  unfold iblk
  show V m c main_v24 (((cfg0.win 5).blk t).view.emb (ix2 g q)) = _
  refine congrArg _ (funext fun a => Fin.ext ?_)
  match a with
  | ⟨0, _⟩ => show win0_5.index t (0 : Fin 2) * 4 + 1 * g.val = g.val; omega
  | ⟨1, _⟩ => show win0_5.index t (1 : Fin 2) * 512 + 1 * q.val = q.val; omega

theorem blk6_apply (c : Dev nD) (t : Fin cfg0.N) (g : Fin 4) (j q : Fin 512) :
    (iblk m c 6 t : S4x512x512.Idx → EReal) (ix3 g j q) = (V m c main_v19 : S4x512x512.Idx → EReal) (ix3 g j q) := by
  obtain ⟨-, -, -, -, -, -, ⟨e0, e1, e2⟩, -⟩ := idx_facts t
  unfold iblk
  show V m c main_v19 (((cfg0.win 6).blk t).view.emb (ix3 g j q)) = _
  refine congrArg _ (funext fun a => Fin.ext ?_)
  match a with
  | ⟨0, _⟩ => show win0_6.index t (0 : Fin 3) * 4 + 1 * g.val = g.val; omega
  | ⟨1, _⟩ => show win0_6.index t (1 : Fin 3) * 512 + 1 * j.val = j.val; omega
  | ⟨2, _⟩ => show win0_6.index t (2 : Fin 3) * 512 + 1 * q.val = q.val; omega

theorem blk7_apply (c : Dev nD) (t : Fin cfg0.N) (g : Fin 4) (q : Fin 512) :
    (iblk m c 7 t : S4x512.Idx → EReal) (ix2 g q) = (V m c main_v29 : S4x512.Idx → EReal) (ix2 g q) := by
  obtain ⟨-, -, -, -, -, -, -, ⟨e0, e1⟩, -⟩ := idx_facts t
  unfold iblk
  show V m c main_v29 (((cfg0.win 7).blk t).view.emb (ix2 g q)) = _
  refine congrArg _ (funext fun a => Fin.ext ?_)
  match a with
  | ⟨0, _⟩ => show win0_7.index t (0 : Fin 2) * 4 + 1 * g.val = g.val; omega
  | ⟨1, _⟩ => show win0_7.index t (1 : Fin 2) * 512 + 1 * q.val = q.val; omega

/-! ## From blocks to the arrays -/

/-- What point `t` writes back into the memory's array is block row `t` of the specification. -/
theorem flushed8_eq (c : Dev nD) (t : Fin cfg0.N) :
    (dats m 0 c).flushed 8 t = ((cfg0.win 8).blk t).view.read (Elt Ideal) (Cert.TreeLstm.cellArr (args m c)) := by
  obtain ⟨-, -, -, -, -, -, -, -, ⟨e0, e1⟩, -⟩ := idx_facts t
  show (cfg0.win 8).cut (grid0.coords t) ((dats m 0 c).after 8 t) = _
  rw [after8]
  unfold out8
  rw [View.canon_unit_zero hz2]
  funext y
  obtain ⟨p, q, rfl⟩ : ∃ (p : Fin 512) (q : Fin 512), y = ix2 p q := ⟨y 0, y 1, eq_ix2 y⟩
  show cellBlk (F := Ideal) (iblk m c 0 t) (iblk m c 1 t) (iblk m c 2 t) (iblk m c 3 t) (iblk m c 4 t) (iblk m c 5 t) (iblk m c 6 t) (iblk m c 7 t) (ix2 p q) = Cert.TreeLstm.cellArr (args m c) (((cfg0.win 8).blk t).view.emb (ix2 p q))
  have hemb : ((cfg0.win 8).blk t).view.emb (ix2 p q) = ix2 (rowOf t p) q := by
    funext a; apply Fin.ext
    match a with
    | ⟨0, _⟩ => show win0_8.index t (0 : Fin 2) * 512 + 1 * p.val = t.val * 512 + p.val; omega
    | ⟨1, _⟩ => show win0_8.index t (1 : Fin 2) * 512 + 1 * q.val = q.val; omega
  rw [hemb, Cert.TreeLstm.cellArr_ix2]
  exact BodyValue.cellBlk_eq (args m c) (rowOf t p) p q (iblk m c 0 t) (iblk m c 1 t) (iblk m c 2 t) (iblk m c 3 t) (iblk m c 4 t) (iblk m c 5 t) (iblk m c 6 t) (iblk m c 7 t)
    (fun j => blk0_apply m c t p j) (fun j => blk1_apply m c t p j) (fun k => blk2_apply m c t k p q) (fun k j => blk3_apply m c t k p j)
    (fun j => ⟨(blk4_apply m c t 0 j q).trans (HostArrays.wx0 m c j q), (blk4_apply m c t 1 j q).trans (HostArrays.wx1 m c j q), (blk4_apply m c t 2 j q).trans (HostArrays.wx2 m c j q), (blk4_apply m c t 3 j q).trans (HostArrays.wx3 m c j q)⟩)
    ⟨(blk5_apply m c t 0 q).trans (HostArrays.bx0 m c q), (blk5_apply m c t 1 q).trans (HostArrays.bx1 m c q), (blk5_apply m c t 2 q).trans (HostArrays.bx2 m c q), (blk5_apply m c t 3 q).trans (HostArrays.bx3 m c q)⟩
    (fun j => ⟨(blk6_apply m c t 0 j q).trans (HostArrays.wh0 m c j q), (blk6_apply m c t 1 j q).trans (HostArrays.wh1 m c j q), (blk6_apply m c t 2 j q).trans (HostArrays.wh2 m c j q), (blk6_apply m c t 3 j q).trans (HostArrays.wh3 m c j q)⟩)
    ⟨(blk7_apply m c t 0 q).trans (HostArrays.bh0 m c q), (blk7_apply m c t 1 q).trans (HostArrays.bh1 m c q), (blk7_apply m c t 2 q).trans (HostArrays.bh2 m c q), (blk7_apply m c t 3 q).trans (HostArrays.bh3 m c q)⟩

/-- An index of the array is in point `t`'s block iff each coordinate is in the block's range on its axis. -/
theorem mem_blk8 (t : Fin cfg0.N) (i : S32768x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v30_0).slice (win0_8.rect t)).set ↔ _
  rw [View.set_slice_whole, Rect.mem_set_unit]
  exact Iff.rfl

/-- Every block row is some point's. -/
theorem idx_onto8 : ∀ q0 : Fin 64, ∃ t : Fin cfg0.N, win0_8.index t = ![q0.val, 0] :=
  (by decide +kernel : ∀ q0 : Fin 64, ∃ t : Fin grid0.N, win0_8.index t = ![q0.val, 0])

/-- The 64 block rows tile the array: row `r` lies in block row `r / 512`. -/
theorem cover8 (i : S32768x512.Idx) : ∃ t : Fin cfg0.N, (cfg0.win 8).flush t = true ∧ i ∈ ((cfg0.win 8).blk t).view.set := by
  have hi0 : (i 0).val < 32768 := (i 0).isLt
  have hi1 : (i 1).val < 512 := (i 1).isLt
  obtain ⟨t, ht⟩ := idx_onto8 ⟨(i 0).val / 512, by omega⟩
  have q0 : win0_8.index t (0 : Fin 2) = (i 0).val / 512 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 512 ≤ (i 1).val ∧ (i 1).val < win0_8.index t (1 : Fin 2) * 512 + 512; omega

/-- The array after the run is the specification's. -/
theorem final8 (c : Dev nD) : (dats m 0 c).arrAt 8 cfg0.N = Cert.TreeLstm.cellArr (args m c) :=
  (dats m 0 c).arrAt_eq_of_cover 8 (Cert.TreeLstm.cellArr (args m c)) (fun t _ => flushed8_eq m c t) (cover8)

/-- What point `t` writes back into the hidden state's array is block row `t` of the specification. -/
theorem flushed9_eq (c : Dev nD) (t : Fin cfg0.N) :
    (dats m 0 c).flushed 9 t = ((cfg0.win 9).blk t).view.read (Elt Ideal) (Cert.TreeLstm.hidArr (args m c)) := by
  obtain ⟨-, -, -, -, -, -, -, -, -, ⟨e0, e1⟩⟩ := idx_facts t
  show (cfg0.win 9).cut (grid0.coords t) ((dats m 0 c).after 9 t) = _
  rw [after9]
  unfold out9
  rw [View.canon_unit_zero hz2]
  funext y
  obtain ⟨p, q, rfl⟩ : ∃ (p : Fin 512) (q : Fin 512), y = ix2 p q := ⟨y 0, y 1, eq_ix2 y⟩
  show hidBlk (F := Ideal) (iblk m c 0 t) (iblk m c 1 t) (iblk m c 2 t) (iblk m c 3 t) (iblk m c 4 t) (iblk m c 5 t) (iblk m c 6 t) (iblk m c 7 t) (ix2 p q) = Cert.TreeLstm.hidArr (args m c) (((cfg0.win 9).blk t).view.emb (ix2 p q))
  have hemb : ((cfg0.win 9).blk t).view.emb (ix2 p q) = ix2 (rowOf t p) q := by
    funext a; apply Fin.ext
    match a with
    | ⟨0, _⟩ => show win0_9.index t (0 : Fin 2) * 512 + 1 * p.val = t.val * 512 + p.val; omega
    | ⟨1, _⟩ => show win0_9.index t (1 : Fin 2) * 512 + 1 * q.val = q.val; omega
  rw [hemb, Cert.TreeLstm.hidArr_ix2]
  exact BodyValue.hidBlk_eq (args m c) (rowOf t p) p q (iblk m c 0 t) (iblk m c 1 t) (iblk m c 2 t) (iblk m c 3 t) (iblk m c 4 t) (iblk m c 5 t) (iblk m c 6 t) (iblk m c 7 t)
    (fun j => blk0_apply m c t p j) (fun j => blk1_apply m c t p j) (fun k => blk2_apply m c t k p q) (fun k j => blk3_apply m c t k p j)
    (fun j => ⟨(blk4_apply m c t 0 j q).trans (HostArrays.wx0 m c j q), (blk4_apply m c t 1 j q).trans (HostArrays.wx1 m c j q), (blk4_apply m c t 2 j q).trans (HostArrays.wx2 m c j q), (blk4_apply m c t 3 j q).trans (HostArrays.wx3 m c j q)⟩)
    ⟨(blk5_apply m c t 0 q).trans (HostArrays.bx0 m c q), (blk5_apply m c t 1 q).trans (HostArrays.bx1 m c q), (blk5_apply m c t 2 q).trans (HostArrays.bx2 m c q), (blk5_apply m c t 3 q).trans (HostArrays.bx3 m c q)⟩
    (fun j => ⟨(blk6_apply m c t 0 j q).trans (HostArrays.wh0 m c j q), (blk6_apply m c t 1 j q).trans (HostArrays.wh1 m c j q), (blk6_apply m c t 2 j q).trans (HostArrays.wh2 m c j q), (blk6_apply m c t 3 j q).trans (HostArrays.wh3 m c j q)⟩)
    ⟨(blk7_apply m c t 0 q).trans (HostArrays.bh0 m c q), (blk7_apply m c t 1 q).trans (HostArrays.bh1 m c q), (blk7_apply m c t 2 q).trans (HostArrays.bh2 m c q), (blk7_apply m c t 3 q).trans (HostArrays.bh3 m c q)⟩

/-- An index of the array is in point `t`'s block iff each coordinate is in the block's range on its axis. -/
theorem mem_blk9 (t : Fin cfg0.N) (i : S32768x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v30_1).slice (win0_9.rect t)).set ↔ _
  rw [View.set_slice_whole, Rect.mem_set_unit]
  exact Iff.rfl

/-- Every block row is some point's. -/
theorem idx_onto9 : ∀ q0 : Fin 64, ∃ t : Fin cfg0.N, win0_9.index t = ![q0.val, 0] :=
  (by decide +kernel : ∀ q0 : Fin 64, ∃ t : Fin grid0.N, win0_9.index t = ![q0.val, 0])

/-- The 64 block rows tile the array: row `r` lies in block row `r / 512`. -/
theorem cover9 (i : S32768x512.Idx) : ∃ t : Fin cfg0.N, (cfg0.win 9).flush t = true ∧ i ∈ ((cfg0.win 9).blk t).view.set := by
  have hi0 : (i 0).val < 32768 := (i 0).isLt
  have hi1 : (i 1).val < 512 := (i 1).isLt
  obtain ⟨t, ht⟩ := idx_onto9 ⟨(i 0).val / 512, by omega⟩
  have q0 : win0_9.index t (0 : Fin 2) = (i 0).val / 512 := congrFun ht 0
  have q1 : win0_9.index t (1 : Fin 2) = 0 := congrFun ht 1
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

/-- The array after the run is the specification's. -/
theorem final9 (c : Dev nD) : (dats m 0 c).arrAt 9 cfg0.N = Cert.TreeLstm.hidArr (args m c) :=
  (dats m 0 c).arrAt_eq_of_cover 9 (Cert.TreeLstm.hidArr (args m c)) (fun t _ => flushed9_eq m c t) (cover9)

/-! ## The run, read -/

/-- The idealized kernel program runs to the end with the memory and the hidden state at the specification of its
    argument arrays, the arguments unchanged. -/
theorem run_spec : θ_run defs (onTc (τ := τ) (main (F := Ideal))) ⟨m, fun _ => 0, ρ⟩ (fun r => ∀ c : Dev nD,
      r.2.mem ((c.tc : Thread nD τ).loc main_v30_0) = Cert.TreeLstm.cellArr (args m c)
      ∧ r.2.mem ((c.tc : Thread nD τ).loc main_v30_1) = Cert.TreeLstm.hidArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (final8 m c), (h c).2.1.trans (final9 m c), (h c).2.2⟩)
    (run_results (F := Ideal) m ρ)

end Cert.KernelIdeal.KValue

end
-- ==== Proof.RefValue.lean ====
/-
  The reference program computes the child-sum Tree-LSTM cell of the specification, entry by entry.

  Read at an entry (r, o) of a [32768, 512] result, each linear layer of the reference is a contraction of row r of
  its input with row o of its weight (the weight is stored [out, in], and the contraction runs over both second
  axes), plus the bias at o, which the reference first stretches along a unit axis and then along the rows. The
  sigmoid is spelled out as 1 / (1 + e^(−t)), with the constant 1.0 the extended real one, which is the logistic
  function of the specification. The four children's forget gates live in a [4, 32768, 512] array whose entry (k, r, o)
  contracts row (k, r) of the children's hidden states with row o of the weight, adds the bias at o, and adds the
  node's own input layer at (r, o), stretched over the child axis. The memory adds the children's terms up from zero
  along the child axis and then adds the product of the input gate and the update; the hidden state is the output
  gate times the hyperbolic tangent of the memory.
-/
import proofs.«170643_j27986006900855_1_alg».proof.Proof.Gen.ReferenceIdeal.Read
import proofs.«170643_j27986006900855_1_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.TreeLstm

/-- A [32768, 512] array of extended reals. -/
abbrev Rows := FVec Ideal ⟨2, ![32768, 512]⟩ .f32
/-- A [4, 32768, 512] array: one [32768, 512] array per child. -/
abbrev Kids := FVec Ideal ⟨3, ![4, 32768, 512]⟩ .f32
/-- A [512, 512] weight, stored [out, in]. -/
abbrev Wt := FVec Ideal ⟨2, ![512, 512]⟩ .f32
/-- A bias of length 512. -/
abbrev Bias := FVec Ideal ⟨1, ![512]⟩ .f32

/-! ## One linear layer at an entry -/

/-- Entry (r, o) of a linear layer: row r of `x` against row o of `W`, plus `b` at o. -/
theorem lin_at (x : Rows) (W : Wt) (b : Bias) (r : Fin 32768) (o : Fin 512) :
    val_main_v3 (F := Ideal) x W b (ix2 r o) = lin x W b r o := by
  rw [val_main_v3_apply, val_main_v0_apply, val_main_v2_apply, val_main_v1_apply, Ideal.addf_def]
  unfold lin
  have eb : idx_main_v1 (idx_main_v2 (ix2 r o)) = ix1 o :=
    funext fun a => Fin.ext (by match a with | ⟨0, _⟩ => rfl)
  rw [eb]
  refine congrArg (· + b (ix1 o)) (Finset.sum_congr rfl fun k _ => ?_)
  have el : lidx_main_v0 (ix2 r o) k = ix2 r k :=
    funext fun a => Fin.ext (by match a with | ⟨0, _⟩ => rfl | ⟨1, _⟩ => rfl)
  have er : ridx_main_v0 (ix2 r o) k = ix2 o k :=
    funext fun a => Fin.ext (by match a with | ⟨0, _⟩ => rfl | ⟨1, _⟩ => rfl)
  rw [el, er]

/-- The sum of the input's layer and the summed children's layer at an entry: what each of the three gates of the
    node is a function of. -/
theorem pre_at (x hs : Rows) (Wx : Wt) (bx : Bias) (Wh : Wt) (bh : Bias) (r : Fin 32768) (o : Fin 512) :
    val_main_v8 (F := Ideal) x hs Wx bx Wh bh (ix2 r o) = lin x Wx bx r o + lin hs Wh bh r o := by
  rw [val_main_v8_apply, Ideal.addf_def, lin_at]
  exact congrArg (lin x Wx bx r o + ·) (lin_at hs Wh bh r o)

/-! ## The sigmoid, spelled 1 / (1 + e^(−t)), is the logistic function -/

/-- At every entry the reference's quotient 1 / (1 + e^(−t)) is the logistic function of t. -/
theorem sigmoid_at (x hs : Rows) (Wx : Wt) (bx : Bias) (Wh : Wt) (bh : Bias) (i : S32768x512.Idx) :
    val_main_v14 (F := Ideal) x hs Wx bx Wh bh i = Ideal.logistic (val_main_v8 (F := Ideal) x hs Wx bx Wh bh i) := by
  rw [val_main_v14_apply, val_main_v13_apply, val_main_cst_0_apply, val_main_v12_apply, val_main_v11_apply,
    val_main_cst_apply, val_main_v10_apply, val_main_v9_apply]
  simp only [Ideal.hostDivf_def, Ideal.addf_def, Ideal.hostUnary_exp_def, Ideal.hostNegf_def, Ideal.negf_def,
    Ideal.ofBits_def, Ideal.ofBits_one_f32]
  rfl

/-- The input gate at an entry. -/
theorem igate_at (a : Args) (r : Fin 32768) (o : Fin 512) :
    val_main_v14 (F := Ideal) a.x a.hs a.Wix a.bix a.Wih a.bih (ix2 r o) = igate a r o := by
  rw [sigmoid_at, pre_at]; rfl

/-- The output gate at an entry: the same operations as the input gate's, on its own weights. -/
theorem ogate_at (a : Args) (r : Fin 32768) (o : Fin 512) :
    val_main_v29 (F := Ideal) a.x a.hs a.Wox a.box a.Woh a.boh (ix2 r o) = ogate a r o :=
  (sigmoid_at a.x a.hs a.Wox a.box a.Woh a.boh (ix2 r o)).trans
    (by rw [pre_at]; rfl)

/-- The update at an entry: the hyperbolic tangent of its two layers' sum. -/
theorem ugate_at (a : Args) (r : Fin 32768) (o : Fin 512) :
    val_main_v39 (F := Ideal) a.x a.hs a.Wux a.bux a.Wuh a.buh (ix2 r o) = ugate a r o := by
  rw [val_main_v39_apply, Ideal.hostUnary_tanh_def]
  exact congrArg Ideal.tanh (pre_at a.x a.hs a.Wux a.bux a.Wuh a.buh r o)

/-! ## The children's forget gates -/

/-- Entry (k, r, o) of the children's layer: row (k, r) of the hidden states against row o of the weight, plus the
    bias at o. -/
theorem linChild_at (h : Kids) (W : Wt) (b : Bias) (k : Fin 4) (r : Fin 32768) (o : Fin 512) :
    val_main_v47 (F := Ideal) h W b (ix3 k r o) = linChild h W b k r o := by
  rw [val_main_v47_apply, val_main_v44_apply, val_main_v46_apply, val_main_v45_apply, Ideal.addf_def]
  unfold linChild
  have eb : idx_main_v45 (idx_main_v46 (ix3 k r o)) = ix1 o :=
    funext fun a => Fin.ext (by match a with | ⟨0, _⟩ => rfl)
  rw [eb]
  refine congrArg (· + b (ix1 o)) (Finset.sum_congr rfl fun j _ => ?_)
  have el : lidx_main_v44 (ix3 k r o) j = ix3 k r j :=
    funext fun a => Fin.ext (by match a with | ⟨0, _⟩ => rfl | ⟨1, _⟩ => rfl | ⟨2, _⟩ => rfl)
  have er : ridx_main_v44 (ix3 k r o) j = ix2 o j :=
    funext fun a => Fin.ext (by match a with | ⟨0, _⟩ => rfl | ⟨1, _⟩ => rfl)
  rw [el, er]

/-- The node's own input layer, stretched over the child axis, read at (k, r, o), is the layer at (r, o). -/
theorem stretched_at (x : Rows) (W : Wt) (b : Bias) (k : Fin 4) (r : Fin 32768) (o : Fin 512) :
    val_main_v49 (F := Ideal) x W b (ix3 k r o) = lin x W b r o := by
  rw [val_main_v49_apply, val_main_v48_apply]
  have e : idx_main_v48 (idx_main_v49 (ix3 k r o)) = ix2 r o :=
    funext fun a => Fin.ext (by match a with | ⟨0, _⟩ => rfl | ⟨1, _⟩ => rfl)
  rw [e]
  exact lin_at x W b r o

/-- The sigmoid on the [4, 32768, 512] array is the logistic function at every entry. -/
theorem sigmoidKids_at (x : Rows) (h : Kids) (Wx : Wt) (bx : Bias) (Wh : Wt) (bh : Bias) (i : S4x32768x512.Idx) :
    val_main_v56 (F := Ideal) x h Wx bx Wh bh i = Ideal.logistic (val_main_v50 (F := Ideal) x h Wx bx Wh bh i) := by
  rw [val_main_v56_apply, val_main_v55_apply, val_main_cst_4_apply, val_main_v54_apply, val_main_v53_apply,
    val_main_cst_3_apply, val_main_v52_apply, val_main_v51_apply]
  simp only [Ideal.hostDivf_def, Ideal.addf_def, Ideal.hostUnary_exp_def, Ideal.hostNegf_def, Ideal.negf_def,
    Ideal.ofBits_def, Ideal.ofBits_one_f32]
  rfl

/-- Child k's forget gate at an entry. -/
theorem fgate_at (a : Args) (k : Fin 4) (r : Fin 32768) (o : Fin 512) :
    val_main_v56 (F := Ideal) a.x a.ch a.Wfx a.bfx a.Wfh a.bfh (ix3 k r o) = fgate a k r o := by
  rw [sigmoidKids_at, val_main_v50_apply, Ideal.addf_def, linChild_at, stretched_at]; rfl

/-- Child k's term of the memory at an entry. -/
theorem fterm_at (a : Args) (k : Fin 4) (r : Fin 32768) (o : Fin 512) :
    val_main_v57 (F := Ideal) a.x a.cc a.ch a.Wfx a.bfx a.Wfh a.bfh (ix3 k r o) = fterm a k r o := by
  rw [val_main_v57_apply, Ideal.mulf_def, fgate_at]; rfl

/-- The children's terms added up from zero along the child axis. -/
theorem childSum_at (a : Args) (r : Fin 32768) (o : Fin 512) :
    val_main_v59 (F := Ideal) a.x a.cc a.ch a.Wfx a.bfx a.Wfh a.bfh (ix2 r o) = 0 + ∑ k : Fin 4, fterm a k r o := by
  rw [val_main_v59_apply, val_main_cst_5_apply, Ideal.ofBits_def, Ideal.ofBits_zero_f32]
  refine congrArg (0 + ·) (Finset.sum_congr rfl fun k _ => ?_)
  have e : idx_main_v59 (ix2 r o) k = ix3 k r o :=
    funext fun a => Fin.ext (by match a with | ⟨0, _⟩ => rfl | ⟨1, _⟩ => rfl | ⟨2, _⟩ => rfl)
  rw [e]
  exact fterm_at a k r o

/-! ## The two results -/

/-- The memory at an entry. -/
theorem cell_at (a : Args) (r : Fin 32768) (o : Fin 512) :
    val_main_v60 (F := Ideal) a.x a.cc a.ch a.hs a.Wix a.bix a.Wfx a.bfx a.Wux a.bux a.Wih a.bih a.Wfh a.bfh a.Wuh a.buh
      (ix2 r o) = cell a r o := by
  rw [val_main_v60_apply, val_main_v58_apply, Ideal.addf_def, Ideal.mulf_def, igate_at, ugate_at, childSum_at, sumFromZero]
  rfl

/-- The reference's memory is the specification's. -/
theorem ref_cell (a : Args) :
    val_main_v60 (F := Ideal) a.x a.cc a.ch a.hs a.Wix a.bix a.Wfx a.bfx a.Wux a.bux a.Wih a.bih a.Wfh a.bfh a.Wuh a.buh
      = cellArr a := by
  funext i
  obtain ⟨r, o, rfl⟩ : ∃ (r : Fin 32768) (o : Fin 512), i = ix2 r o := ⟨i 0, i 1, eq_ix2 i⟩
  exact cell_at a r o

/-- The reference's hidden state is the specification's. -/
theorem ref_hid (a : Args) :
    val_main_v62 (F := Ideal) a.x a.cc a.ch a.hs a.Wix a.bix a.Wfx a.bfx a.Wux a.bux a.Wox a.box a.Wih a.bih a.Wfh a.bfh
      a.Wuh a.buh a.Woh a.boh = hidArr a := by
  funext i
  obtain ⟨r, o, rfl⟩ : ∃ (r : Fin 32768) (o : Fin 512), i = ix2 r o := ⟨i 0, i 1, eq_ix2 i⟩
  rw [val_main_v62_apply, val_main_v61_apply, Ideal.mulf_def, Ideal.hostUnary_tanh_def, ogate_at, cell_at]
  rfl

/-! ## The run -/

/-- The twenty argument arrays of a device, read off a memory. -/
def args (m' : (ℓ : Loc nD τ sig) → Buf (Elt Ideal) ℓ) (c : Dev nD) : Cert.TreeLstm.Args :=
  ⟨m' ((c.tc : Thread nD τ).loc main_arg0),
    m' ((c.tc : Thread nD τ).loc main_arg1),
    m' ((c.tc : Thread nD τ).loc main_arg2),
    m' ((c.tc : Thread nD τ).loc main_arg3),
    m' ((c.tc : Thread nD τ).loc main_arg4),
    m' ((c.tc : Thread nD τ).loc main_arg5),
    m' ((c.tc : Thread nD τ).loc main_arg6),
    m' ((c.tc : Thread nD τ).loc main_arg7),
    m' ((c.tc : Thread nD τ).loc main_arg8),
    m' ((c.tc : Thread nD τ).loc main_arg9),
    m' ((c.tc : Thread nD τ).loc main_arg10),
    m' ((c.tc : Thread nD τ).loc main_arg11),
    m' ((c.tc : Thread nD τ).loc main_arg12),
    m' ((c.tc : Thread nD τ).loc main_arg13),
    m' ((c.tc : Thread nD τ).loc main_arg14),
    m' ((c.tc : Thread nD τ).loc main_arg15),
    m' ((c.tc : Thread nD τ).loc main_arg16),
    m' ((c.tc : Thread nD τ).loc main_arg17),
    m' ((c.tc : Thread nD τ).loc main_arg18),
    m' ((c.tc : Thread nD τ).loc main_arg19)⟩

/-- Every weakly fair execution of the reference ends with the specification's memory and hidden state of the argument
    arrays in its two result arrays, the arguments unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v60) = Cert.TreeLstm.cellArr (args m' c)
      ∧ r.2.mem ((c.tc : Thread nD τ).loc main_v62) = Cert.TreeLstm.hidArr (args m' c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)) :=
  (θ_run (defs (F := Ideal)) _ _).mono
    (fun _ h c => ⟨(h c).1.trans ((val_main_v60_eq _ _ _ _ _ _ _ _ _ _ _ _ _ _ _ _).trans (ref_cell (args m' c))),
      (h c).2.1.trans ((val_main_v62_eq _ _ _ _ _ _ _ _ _ _ _ _ _ _ _ _ _ _ _ _).trans (ref_hid (args m' c))),
      (h c).2.2⟩)
    (Cert.ReferenceIdeal.Value.run (F := Ideal) m' ρ')

end Cert.ReferenceIdeal.RefValue

end
-- ==== Proof.lean ====
/-
  Equivalence of a fused child-sum Tree-LSTM cell kernel with its plain reference, over the extended reals.

  Both programs take a node's input rows, its four children's memory and hidden rows, the summed child states, and
  eight torch-layout linear layers, and return the new memory `c = i · u + Σ_k f_k · c_k` and hidden state
  `h = o · tanh c` (Proof/Spec.lean states them entry by entry). The kernel transposes and stacks the weights on the
  host, narrows them for the matrix unit (the identity on exact reals), and computes one block of 512 rows per grid
  point, adding the children's terms one at a time onto `i · u`; the reference contracts against the untransposed
  weights, spells the sigmoid as `1 / (1 + e^(−t))`, and adds the children's terms up from zero before adding `i · u`.
  Entry by entry these are the same extended real: every product has the same two factors, every sum the same terms in
  the same grouping except the children's, which differ only by associativity of `+`.

  The frames: each kernel program runs to the end, faulting nowhere, its arguments unchanged (Proof/FrameBits.lean for
  the program as printed, Proof/FrameIdeal.lean for its exact-arithmetic reading: the same text at two float families);
  the reference's frame is its run with the results dropped. No operation of the kernel was rewritten for the
  exact-arithmetic reading, so nothing is owed for it. The value claim joins the kernel's run (Proof/KernelValue.lean)
  and the reference's (Proof/RefValue.lean), both stated at the specification of the same argument arrays.
-/
import proofs.«170643_j27986006900855_1_alg».proof.Defs
import proofs.«170643_j27986006900855_1_alg».proof.Proof.Gen.Kernel
import proofs.«170643_j27986006900855_1_alg».proof.Proof.Gen.KernelIdeal
import proofs.«170643_j27986006900855_1_alg».proof.Proof.Gen.ReferenceIdeal
import proofs.«170643_j27986006900855_1_alg».proof.Proof.Gen.Pre_finite_inputs
import proofs.«170643_j27986006900855_1_alg».proof.Proof.FrameBits
import proofs.«170643_j27986006900855_1_alg».proof.Proof.KernelValue
import proofs.«170643_j27986006900855_1_alg».proof.Proof.RefValue

noncomputable section

namespace Cert.Proof

open Idealize.ShloMosaic Idealize.ShloMosaic.TcCoe Idealize.SL.Sem

/-- The program as printed runs to the end and leaves its arguments unchanged. -/
theorem frame_k : Cert.frame_Kernel := fun m ρ _ => Cert.Kernel.Fr.frame (F := Bits) m ρ

/-- So does its exact-arithmetic reading. -/
theorem frame_ki : Cert.frame_KernelIdeal := fun m ρ _ => Cert.KernelIdeal.Fr.frame (F := Ideal) m ρ

/-- The reference's frame is its run with the results dropped. -/
theorem frame_ri : Cert.frame_ReferenceIdeal := fun m ρ _ =>
  (θ_run Cert.ReferenceIdeal.defs _ _).mono (fun _ h c => (h c).2.2) (Cert.ReferenceIdeal.RefValue.run_spec m ρ)

/-- From memories that agree on the arguments, both programs end with the memory and the hidden state at the
    specification of the same twenty arrays. -/
theorem algebraic : Cert.algebraic_KernelIdeal_ReferenceIdeal := by
  intro m ρ m' ρ' _ hagree
  have hargs : ∀ c, Cert.ReferenceIdeal.RefValue.args m' c = Cert.KernelIdeal.KValue.args m c := fun c => by
    obtain ⟨h0, h1, h2, h3, h4, h5, h6, h7, h8, h9, h10, h11, h12, h13, h14, h15, h16, h17, h18, h19⟩ := hagree c
    unfold Cert.ReferenceIdeal.RefValue.args Cert.KernelIdeal.KValue.args
    rw [h0, h1, h2, h3, h4, h5, h6, h7, h8, h9, h10, h11, h12, h13, h14, h15, h16, h17, h18, h19]
  refine ⟨fun c => Cert.TreeLstm.cellArr (Cert.KernelIdeal.KValue.args m c), fun c => Cert.TreeLstm.hidArr (Cert.KernelIdeal.KValue.args m c),
    Cert.KernelIdeal.KValue.run_spec m ρ, ?_⟩
  refine (θ_run Cert.ReferenceIdeal.defs _ _).mono (fun r h c => ?_) (Cert.ReferenceIdeal.RefValue.run_spec m' ρ')
  have hc := h c
  rw [hargs c] at hc
  exact hc

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
